-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1x128 : Shape := ⟨3, ![10000, 1, 128]⟩
abbrev S10000x3x128 : Shape := ⟨3, ![10000, 3, 128]⟩
abbrev S2x160000 : Shape := ⟨2, ![2, 160000]⟩
abbrev S160000x1x384 : Shape := ⟨3, ![160000, 1, 384]⟩
abbrev S160000x3 : Shape := ⟨2, ![160000, 3]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩
abbrev S1x160000 : Shape := ⟨2, ![1, 160000]⟩
abbrev S160000 : Shape := ⟨1, ![160000]⟩

class Facts : Prop where
  bcast_S_S10000x1x128 : S_.BroadcastsInDim S10000x1x128 (![] : Fin 0 → Fin S10000x1x128.rank)
  reducesTo_S10000x1x128_S_d0_1_2 : S10000x1x128.ReducesTo [0, 1, 2] S_
  h_S_ : 0 < S_.numel
  bcast_S_S10000x3x128 : S_.BroadcastsInDim S10000x3x128 (![] : Fin 0 → Fin S10000x3x128.rank)
  reducesTo_S10000x3x128_S_d0_1_2 : S10000x3x128.ReducesTo [0, 1, 2] S_
  bcast_S_S160000x1x384 : S_.BroadcastsInDim S160000x1x384 (![] : Fin 0 → Fin S160000x1x384.rank)
  reducesTo_S160000x1x384_S_d0_1_2 : S160000x1x384.ReducesTo [0, 1, 2] S_
  bcast_S_S160000x3 : S_.BroadcastsInDim S160000x3 (![] : Fin 0 → Fin S160000x3.rank)
  reducesTo_S160000x3_S_d0_1 : S160000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  slices_S2x160000_S1x160000_1_0 : S2x160000.Slices ![1, 0] S1x160000
  shapeCasts_S1x160000_S160000 : S1x160000.ShapeCasts S160000
  bcast_S_S160000 : S_.BroadcastsInDim S160000 (![] : Fin 0 → Fin S160000.rank)
  reducesTo_S160000_S_d0 : S160000.ReducesTo [0] S_

variable [Facts]

def fn_part3 {F : FTy → Type} [FloatOps F] (main_v43 : IVec S_ 1) (main_v47 : IVec S160000 1) (main_v51 : IVec S160000 1) : IVec S_ 1 :=
  let main_v52 : IVec S160000 1 := andi main_v47 main_v51
  let main_c_18 : IVec S_ 1 := constantI S_ 1 1#1
  let main_v53 : IVec S_ 1 := (fun x v => Host.reduce IntOp.andi x v reducesTo_S160000_S_d0 h_S_) main_v52 main_c_18
  let main_v54 : IVec S_ 1 := andi main_v43 main_v53
  main_v54

def fn_part2 {F : FTy → Type} [FloatOps F] (main_arg2 : IVec S2x160000 32) (main_arg8 : FVec F S384 .f32) (main_arg9 : FVec F S128 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : IVec S1x160000 32 := (extractStridedSlice S1x160000 ![1, 0] · slices_S2x160000_S1x160000_1_0) main_arg2
  let main_v45 : IVec S160000 32 := shapeCast S160000 main_v44 shapeCasts_S1x160000_S160000
  let main_c_16 : IVec S_ 32 := constantI S_ 32 0#32
  let main_v46 : IVec S160000 32 := broadcastInDim S160000 ![] bcast_S_S160000 main_c_16
  let main_v47 : IVec S160000 1 := cmpi .sge main_v45 main_v46
  let main_v48 : IVec S1x160000 32 := (extractStridedSlice S1x160000 ![1, 0] · slices_S2x160000_S1x160000_1_0) main_arg2
  let main_v49 : IVec S160000 32 := shapeCast S160000 main_v48 shapeCasts_S1x160000_S160000
  let main_c_17 : IVec S_ 32 := constantI S_ 32 10000#32
  let main_v50 : IVec S160000 32 := broadcastInDim S160000 ![] bcast_S_S160000 main_c_17
  let main_v51 : IVec S160000 1 := cmpi .slt main_v49 main_v50
  fn_part3 (F := F) main_v43 main_v47 main_v51

def fn_part1 {F : FTy → Type} [FloatOps F] (main_arg2 : IVec S2x160000 32) (main_arg5 : FVec F S128x128 .f32) (main_arg6 : FVec F S128 .f32) (main_arg7 : FVec F S384x128 .f32) (main_arg8 : FVec F S384 .f32) (main_arg9 : FVec F S128 .f32) (main_v13 : IVec S_ 1) (main_v16 : IVec S160000x3 1) : IVec S_ 1 :=
  let main_c_5 : IVec S_ 1 := constantI S_ 1 1#1
  let main_v17 : IVec S_ 1 := (fun x v => Host.reduce IntOp.andi x v reducesTo_S160000x3_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg2 main_arg8 main_arg9 main_v33

def fn {F : FTy → Type} [FloatOps F] (main_arg0 : FVec F S10000x1x128 .f32) (main_arg1 : FVec F S10000x3x128 .f32) (main_arg2 : IVec S2x160000 32) (main_arg3 : FVec F S160000x1x384 .f32) (main_arg4 : FVec F S160000x3 .f32) (main_arg5 : FVec F S128x128 .f32) (main_arg6 : FVec F S128 .f32) (main_arg7 : FVec F S384x128 .f32) (main_arg8 : FVec F S384 .f32) (main_arg9 : FVec F S128 .f32) : IVec S_ 1 :=
  let main_v0 : FVec F S10000x1x128 .f32 := Host.absf main_arg0
  let main_cst : FVec F S_ .f32 := constant S_ .f32 0x7F800000#32
  let main_v1 : FVec F S10000x1x128 .f32 := broadcastInDim S10000x1x128 ![] bcast_S_S10000x1x128 main_cst
  let main_v2 : IVec S10000x1x128 1 := cmpf .olt main_v0 main_v1
  let main_c : IVec S_ 1 := constantI S_ 1 1#1
  let main_v3 : IVec S_ 1 := (fun x v => Host.reduce IntOp.andi x v reducesTo_S10000x1x128_S_d0_1_2 h_S_) main_v2 main_c
  let main_v4 : FVec F S10000x3x128 .f32 := Host.absf main_arg1
  let main_cst_0 : FVec F S_ .f32 := constant S_ .f32 0x7F800000#32
  let main_v5 : FVec F S10000x3x128 .f32 := broadcastInDim S10000x3x128 ![] bcast_S_S10000x3x128 main_cst_0
  let main_v6 : IVec S10000x3x128 1 := cmpf .olt main_v4 main_v5
  let main_c_1 : IVec S_ 1 := constantI S_ 1 1#1
  let main_v7 : IVec S_ 1 := (fun x v => Host.reduce IntOp.andi x v reducesTo_S10000x3x128_S_d0_1_2 h_S_) main_v6 main_c_1
  let main_v8 : IVec S_ 1 := andi main_v3 main_v7
  let main_v9 : FVec F S160000x1x384 .f32 := Host.absf main_arg3
  let main_cst_2 : FVec F S_ .f32 := constant S_ .f32 0x7F800000#32
  let main_v10 : FVec F S160000x1x384 .f32 := broadcastInDim S160000x1x384 ![] bcast_S_S160000x1x384 main_cst_2
  let main_v11 : IVec S160000x1x384 1 := cmpf .olt main_v9 main_v10
  let main_c_3 : IVec S_ 1 := constantI S_ 1 1#1
  let main_v12 : IVec S_ 1 := (fun x v => Host.reduce IntOp.andi x v reducesTo_S160000x1x384_S_d0_1_2 h_S_) main_v11 main_c_3
  let main_v13 : IVec S_ 1 := andi main_v8 main_v12
  let main_v14 : FVec F S160000x3 .f32 := Host.absf main_arg4
  let main_cst_4 : FVec F S_ .f32 := constant S_ .f32 0x7F800000#32
  let main_v15 : FVec F S160000x3 .f32 := broadcastInDim S160000x3 ![] bcast_S_S160000x3 main_cst_4
  let main_v16 : IVec S160000x3 1 := cmpf .olt main_v14 main_v15
  fn_part1 (F := F) main_arg2 main_arg5 main_arg6 main_arg7 main_arg8 main_arg9 main_v13 main_v16
-- ==== Kernel.lean ====
abbrev S10000x1x128 : Shape := ⟨3, ![10000, 1, 128]⟩
abbrev S10000x3x128 : Shape := ⟨3, ![10000, 3, 128]⟩
abbrev S2x160000 : Shape := ⟨2, ![2, 160000]⟩
abbrev S160000x1x384 : Shape := ⟨3, ![160000, 1, 384]⟩
abbrev S160000x3 : Shape := ⟨2, ![160000, 3]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1x160000 : Shape := ⟨2, ![1, 160000]⟩
abbrev S160000 : Shape := ⟨1, ![160000]⟩
abbrev S128x384 : Shape := ⟨2, ![128, 384]⟩
abbrev S10000x128 : Shape := ⟨2, ![10000, 128]⟩
abbrev S10000x384 : Shape := ⟨2, ![10000, 384]⟩
abbrev S2000x128 : Shape := ⟨2, ![2000, 128]⟩
abbrev S2000x384 : Shape := ⟨2, ![2000, 384]⟩
abbrev S2000 : Shape := ⟨1, ![2000]⟩
abbrev S2000x1 : Shape := ⟨2, ![2000, 1]⟩
abbrev S1x128 : Shape := ⟨2, ![1, 128]⟩
abbrev S1x384 : Shape := ⟨2, ![1, 384]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S160000x384 : Shape := ⟨2, ![160000, 384]⟩
abbrev S160000x128 : Shape := ⟨2, ![160000, 128]⟩
abbrev S2000x3 : Shape := ⟨2, ![2000, 3]⟩
abbrev S160000x3x128 : Shape := ⟨3, ![160000, 3, 128]⟩

abbrev nBuf : Space → Nat
  | .hbm => 80
  | .vmem => 21
  | .smem => 0
  | _ => 0

abbrev bufTy : (tb : Table) → Fin (tcTables nBuf tb) → BufTy
  | .hbm, ⟨0, _⟩ => ⟨S10000x1x128, .f32⟩
  | .hbm, ⟨1, _⟩ => ⟨S10000x3x128, .f32⟩
  | .hbm, ⟨2, _⟩ => ⟨S2x160000, .i32⟩
  | .hbm, ⟨3, _⟩ => ⟨S160000x1x384, .f32⟩
  | .hbm, ⟨4, _⟩ => ⟨S160000x3, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S384, .f32⟩
  | .hbm, ⟨9, _⟩ => ⟨S128, .f32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S128x128, .f32⟩
  | .hbm, ⟨15, _⟩ => ⟨S128x384, .f32⟩
  | .hbm, ⟨16, _⟩ => ⟨S10000x128, .f32⟩
  | .hbm, ⟨17, _⟩ => ⟨S10000x384, .f32⟩
  | .hbm, ⟨18, _⟩ => ⟨S_, .i32⟩
  | .hbm, ⟨19, _⟩ => ⟨S160000, .i32⟩
  | .hbm, ⟨20, _⟩ => ⟨S160000, .i1⟩
  | .hbm, ⟨21, _⟩ => ⟨S_, .i32⟩
  | .hbm, ⟨22, _⟩ => ⟨S160000, .i32⟩
  | .hbm, ⟨23, _⟩ => ⟨S160000, .i32⟩
  | .hbm, ⟨24, _⟩ => ⟨S160000, .i32⟩
  | .hbm, ⟨25, _⟩ => ⟨S160000x1, .i32⟩
  | .hbm, ⟨26, _⟩ => ⟨S1, .i32⟩
  | .hbm, ⟨27, _⟩ => ⟨S_, .i32⟩
  | .hbm, ⟨28, _⟩ => ⟨S160000x1, .i32⟩
  | .hbm, ⟨29, _⟩ => ⟨S160000x1, .i1⟩
  | .hbm, ⟨30, _⟩ => ⟨S1x1, .i32⟩
  | .hbm, ⟨31, _⟩ => ⟨S160000x1, .i32⟩
  | .hbm, ⟨32, _⟩ => ⟨S160000x1, .i1⟩
  | .hbm, ⟨33, _⟩ => ⟨S160000x1, .i1⟩
  | .hbm, ⟨34, _⟩ => ⟨S_, .i1⟩
  | .hbm, ⟨35, _⟩ => ⟨S160000, .i1⟩
  | .hbm, ⟨36, _⟩ => ⟨S160000x384, .f32⟩
  | .hbm, ⟨37, _⟩ => ⟨S160000x384, .i1⟩
  | .hbm, ⟨38, _⟩ => ⟨S_, .f32⟩
  | .hbm, ⟨39, _⟩ => ⟨S160000x384, .f32⟩
  | .hbm, ⟨40, _⟩ => ⟨S160000x384, .f32⟩
  | .hbm, ⟨41, _⟩ => ⟨S10000x384, .f32⟩
  | .hbm, ⟨42, _⟩ => ⟨S_, .i32⟩
  | .hbm, ⟨43, _⟩ => ⟨S160000, .i32⟩
  | .hbm, ⟨44, _⟩ => ⟨S160000, .i1⟩
  | .hbm, ⟨45, _⟩ => ⟨S_, .i32⟩
  | .hbm, ⟨46, _⟩ => ⟨S160000, .i32⟩
  | .hbm, ⟨47, _⟩ => ⟨S160000, .i32⟩
  | .hbm, ⟨48, _⟩ => ⟨S160000, .i32⟩
  | .hbm, ⟨49, _⟩ => ⟨S160000x1, .i32⟩
  | .hbm, ⟨50, _⟩ => ⟨S1, .i32⟩
  | .hbm, ⟨51, _⟩ => ⟨S_, .i32⟩
  | .hbm, ⟨52, _⟩ => ⟨S160000x1, .i32⟩
  | .hbm, ⟨53, _⟩ => ⟨S160000x1, .i1⟩
  | .hbm, ⟨54, _⟩ => ⟨S1x1, .i32⟩
  | .hbm, ⟨55, _⟩ => ⟨S160000x1, .i32⟩
  | .hbm, ⟨56, _⟩ => ⟨S160000x1, .i1⟩
  | .hbm, ⟨57, _⟩ => ⟨S160000x1, .i1⟩
  | .hbm, ⟨58, _⟩ => ⟨S_, .i1⟩
  | .hbm, ⟨59, _⟩ => ⟨S160000, .i1⟩
  | .hbm, ⟨60, _⟩ => ⟨S160000x384, .f32⟩
  | .hbm, ⟨61, _⟩ => ⟨S160000x384, .i1⟩
  | .hbm, ⟨62, _⟩ => ⟨S_, .f32⟩
  | .hbm, ⟨63, _⟩ => ⟨S160000x384, .f32⟩
  | .hbm, ⟨64, _⟩ => ⟨S160000x384, .f32⟩
  | .hbm, ⟨65, _⟩ => ⟨S160000x384, .f32⟩
  | .hbm, ⟨66, _⟩ => ⟨S160000x128, .f32⟩
  | .hbm, ⟨67, _⟩ => ⟨S160000x384, .f32⟩
  | .hbm, ⟨68, _⟩ => ⟨S_, .f32⟩
  | .hbm, ⟨69, _⟩ => ⟨S10000x128, .f32⟩
  | .hbm, ⟨70, _⟩ => ⟨S160000x1, .i32⟩
  | .hbm, ⟨71, _⟩ => ⟨S10000x128, .f32⟩
  | .hbm, ⟨72, _⟩ => ⟨S160000x3x128, .f32⟩
  | .hbm, ⟨73, _⟩ => ⟨S_, .f32⟩
  | .hbm, ⟨74, _⟩ => ⟨S10000x3x128, .f32⟩
  | .hbm, ⟨75, _⟩ => ⟨S160000x1, .i32⟩
  | .hbm, ⟨76, _⟩ => ⟨S10000x3x128, .f32⟩
  | .hbm, ⟨77, _⟩ => ⟨S10000x1x128, .f32⟩
  | .hbm, ⟨78, _⟩ => ⟨S10000x1x128, .f32⟩
  | .hbm, ⟨79, _⟩ => ⟨S10000x3x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x384, .f32⟩
  | .local _ .vmem, ⟨5, _⟩ => ⟨S384, .f32⟩
  | .local _ .vmem, ⟨6, _⟩ => ⟨S128, .f32⟩
  | .local _ .vmem, ⟨7, _⟩ => ⟨S2000x384, .f32⟩
  | .local _ .vmem, ⟨8, _⟩ => ⟨S2000x384, .f32⟩
  | .local _ .vmem, ⟨9, _⟩ => ⟨S2000x384, .f32⟩
  | .local _ .vmem, ⟨10, _⟩ => ⟨S2000x384, .f32⟩
  | .local _ .vmem, ⟨11, _⟩ => ⟨S2000x384, .f32⟩
  | .local _ .vmem, ⟨12, _⟩ => ⟨S2000x384, .f32⟩
  | .local _ .vmem, ⟨13, _⟩ => ⟨S2000x384, .f32⟩
  | .local _ .vmem, ⟨14, _⟩ => ⟨S2000x384, .f32⟩
  | .local _ .vmem, ⟨15, _⟩ => ⟨S2000x3, .f32⟩
  | .local _ .vmem, ⟨16, _⟩ => ⟨S2000x3, .f32⟩
  | .local _ .vmem, ⟨17, _⟩ => ⟨S2000x128, .f32⟩
  | .local _ .vmem, ⟨18, _⟩ => ⟨S2000x128, .f32⟩
  | .local _ .vmem, ⟨19, _⟩ => ⟨S2000x384, .f32⟩
  | .local _ .vmem, ⟨20, _⟩ => ⟨S2000x384, .f32⟩
  | _, _ => ⟨S10000x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v8 : Ref sig .tc := ⟨.hbm, 40, rfl⟩
abbrev main_v9 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v10 : Ref sig .tc := ⟨.hbm, 64, rfl⟩
abbrev main_v11 : Ref sig .tc := ⟨.hbm, 65, rfl⟩
abbrev main_v12_0 : Ref sig .tc := ⟨.hbm, 66, rfl⟩
abbrev main_v12_1 : Ref sig .tc := ⟨.hbm, 67, rfl⟩
abbrev main_cst : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_cst_0 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  transposes_S128x128_S128x128_1_0 : S128x128.Transposes [1, 0] S128x128
  transposes_S384x128_S128x384_1_0 : S384x128.Transposes [1, 0] S128x384
  shapeCasts_S10000x1x128_S10000x128 : S10000x1x128.ShapeCasts S10000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x384_0 : S160000.BroadcastsInDim S160000x384 (![0] : Fin 1 → Fin S160000x384.rank)
  bcast_S_S160000x384 : S_.BroadcastsInDim S160000x384 (![] : Fin 0 → Fin S160000x384.rank)
  shapeCasts_S10000x3x128_S10000x384 : S10000x3x128.ShapeCasts S10000x384
  shapeCasts_S160000x1x384_S160000x384 : S160000x1x384.ShapeCasts S160000x384
  shapeCasts_S2000x384_S2000x384 : S2000x384.ShapeCasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  inb_S2000x3_S2000x1_0_0 : ∀ a, (![0, 0] : Fin 2 → Nat) a + S2000x1.size a ≤ S2000x3.size a
  h_S2000x1 : 0 < S2000x1.numel
  inb_S2000x384_S2000x128_0_0 : ∀ a, (![0, 0] : Fin 2 → Nat) a + S2000x128.size a ≤ S2000x384.size a
  inb_S2000x3_S2000x1_0_1 : ∀ a, (![0, 1] : Fin 2 → Nat) a + S2000x1.size a ≤ S2000x3.size a
  inb_S2000x384_S2000x128_0_128 : ∀ a, (![0, 128] : Fin 2 → Nat) a + S2000x128.size a ≤ S2000x384.size a
  inb_S2000x3_S2000x1_0_2 : ∀ a, (![0, 2] : Fin 2 → Nat) a + S2000x1.size a ≤ S2000x3.size a
  inb_S2000x384_S2000x128_0_256 : ∀ a, (![0, 256] : Fin 2 → Nat) a + S2000x128.size a ≤ S2000x384.size a
  bcast_S_S10000x128 : S_.BroadcastsInDim S10000x128 (![] : Fin 0 → Fin S10000x128.rank)
  shapeCasts_S160000x384_S160000x3x128 : S160000x384.ShapeCasts S160000x3x128
  bcast_S_S10000x3x128 : S_.BroadcastsInDim S10000x3x128 (![] : Fin 0 → Fin S10000x3x128.rank)
  shapeCasts_S10000x128_S10000x1x128 : S10000x128.ShapeCasts S10000x1x128
  dot_S2000x128_S128x128_S2000x128_1_0_0_1_n_n_wf : DotDims.WF S2000x128 S128x128 S2000x128 [1] [0] [0] [1] [] []
  dot_S2000x128_S128x384_S2000x384_1_0_0_1_n_n_wf : DotDims.WF S2000x128 S128x384 S2000x384 [1] [0] [0] [1] [] []
  gather_S10000x384_S160000x1_S160000x384_1_0_n_n_0_1_1384_wf : GatherDims.WF S10000x384 S160000x1 S160000x384 [1] [0] [] [0] [] 1 ![1, 384]
  scatter_S10000x128_S160000x1_S160000x128_1_0_0_1_wf : ScatterDims.WF S10000x128 S160000x1 S160000x128 [1] [0] [0] 1
  scatter_S10000x3x128_S160000x1_S160000x3x128_12_0_0_1_wf : ScatterDims.WF S10000x3x128 S160000x1 S160000x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x384.size a ≤ S10000x384.size a
  hwx0_6 : ∀ i : grid0.Coords, EltTy.bits .f32 = 32 ∨ (Rect.block (s := S10000x384) S2000x384.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S160000x384.size a
  hwx1_0 : ∀ i : grid1.Coords, EltTy.bits .f32 = 32 ∨ (Rect.block (s := S160000x384) S2000x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x384.size a ≤ S160000x384.size a
  hwx1_1 : ∀ i : grid1.Coords, EltTy.bits .f32 = 32 ∨ (Rect.block (s := S160000x384) S2000x384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x384.size a ≤ S160000x384.size a
  hwx1_2 : ∀ i : grid1.Coords, EltTy.bits .f32 = 32 ∨ (Rect.block (s := S160000x384) S2000x384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S160000x3.size a
  hwx1_3 : ∀ i : grid1.Coords, EltTy.bits .f32 = 32 ∨ (Rect.block (s := S160000x3) S2000x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S160000x128.size a
  hwx1_4 : ∀ i : grid1.Coords, EltTy.bits .f32 = 32 ∨ (Rect.block (s := S160000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x384.size a ≤ S160000x384.size a
  hwx1_5 : ∀ i : grid1.Coords, EltTy.bits .f32 = 32 ∨ (Rect.block (s := S160000x384) S2000x384.size (cc1_transform_5 i) (hinb1_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S10000x384_S160000x1_S160000x384_1_0_n_n_0_1_1384 : GatherDims S10000x384 S160000x1 S160000x384 where
  offsetDims := [1]
  collapsedSliceDims := [0]
  operandBatchingDims := []
  startIndicesBatchingDims := []
  startIndexMap := [0]
  indexVectorDim := 1
  sliceSizes := ![1, 384]
  wf := gather_S10000x384_S160000x1_S160000x384_1_0_n_n_0_1_1384_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def scatter_S10000x3x128_S160000x1_S160000x3x128_12_0_0_1 : ScatterDims S10000x3x128 S160000x1 S160000x3x128 where
  updateWindowDims := [1, 2]
  insertedWindowDims := [0]
  scatterDimsToOperandDims := [0]
  indexVectorDim := 1
  wf := scatter_S10000x3x128_S160000x1_S160000x3x128_12_0_0_1_wf

abbrev win0_0 : Pipeline.Window sig grid0 :=
  Pipeline.Window.ofSpec (Memref.whole main_v6) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2000x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2000x384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12_1) S2000x384.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x1x128 : Shape := ⟨3, ![10000, 1, 128]⟩
abbrev S10000x3x128 : Shape := ⟨3, ![10000, 3, 128]⟩
abbrev S2x160000 : Shape := ⟨2, ![2, 160000]⟩
abbrev S160000x1x384 : Shape := ⟨3, ![160000, 1, 384]⟩
abbrev S160000x3 : Shape := ⟨2, ![160000, 3]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1x160000 : Shape := ⟨2, ![1, 160000]⟩
abbrev S160000 : Shape := ⟨1, ![160000]⟩
abbrev S_ : Shape := ⟨0, ![]⟩
abbrev S10000x1 : Shape := ⟨2, ![10000, 1]⟩
abbrev S10000x1x1 : Shape := ⟨3, ![10000, 1, 1]⟩
abbrev S1x1x128 : Shape := ⟨3, ![1, 1, 128]⟩
abbrev S10000x1x384 : Shape := ⟨3, ![10000, 1, 384]⟩
abbrev S1x1x384 : Shape := ⟨3, ![1, 1, 384]⟩
abbrev S160000x1 : Shape := ⟨2, ![160000, 1]⟩
abbrev S160000x1x128 : Shape := ⟨3, ![160000, 1, 128]⟩
abbrev S160000x3x128 : Shape := ⟨3, ![160000, 3, 128]⟩
abbrev S160000x3x1 : Shape := ⟨3, ![160000, 3, 1]⟩

abbrev nBuf : Space → Nat
  | .hbm => 92
  | .vmem => 0
  | .smem => 0
  | _ => 0

abbrev bufTy : (tb : Table) → Fin (tcTables nBuf tb) → BufTy
  | .hbm, ⟨0, _⟩ => ⟨S10000x1x128, .f32⟩
  | .hbm, ⟨1, _⟩ => ⟨S10000x3x128, .f32⟩
  | .hbm, ⟨2, _⟩ => ⟨S2x160000, .i32⟩
  | .hbm, ⟨3, _⟩ => ⟨S160000x1x384, .f32⟩
  | .hbm, ⟨4, _⟩ => ⟨S160000x3, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S384, .f32⟩
  | .hbm, ⟨9, _⟩ => ⟨S128, .f32⟩
  | .hbm, ⟨10, _⟩ => ⟨S1x160000, .i32⟩
  | .hbm, ⟨11, _⟩ => ⟨S160000, .i32⟩
  | .hbm, ⟨12, _⟩ => ⟨S1x160000, .i32⟩
  | .hbm, ⟨13, _⟩ => ⟨S160000, .i32⟩
  | .hbm, ⟨14, _⟩ => ⟨S10000x1x128, .f32⟩
  | .hbm, ⟨15, _⟩ => ⟨S_, .f32⟩
  | .hbm, ⟨16, _⟩ => ⟨S10000x1, .f32⟩
  | .hbm, ⟨17, _⟩ => ⟨S10000x1x1, .f32⟩
  | .hbm, ⟨18, _⟩ => ⟨S_, .f32⟩
  | .hbm, ⟨19, _⟩ => ⟨S10000x1x1, .f32⟩
  | .hbm, ⟨20, _⟩ => ⟨S10000x1x1, .f32⟩
  | .hbm, ⟨21, _⟩ => ⟨S_, .f32⟩
  | .hbm, ⟨22, _⟩ => ⟨S10000x1x1, .f32⟩
  | .hbm, ⟨23, _⟩ => ⟨S10000x1x1, .f32⟩
  | .hbm, ⟨24, _⟩ => ⟨S10000x1x1, .f32⟩
  | .hbm, ⟨25, _⟩ => ⟨S10000x1x128, .f32⟩
  | .hbm, ⟨26, _⟩ => ⟨S10000x1x128, .f32⟩
  | .hbm, ⟨27, _⟩ => ⟨S1x1x128, .f32⟩
  | .hbm, ⟨28, _⟩ => ⟨S10000x1x128, .f32⟩
  | .hbm, ⟨29, _⟩ => ⟨S10000x1x128, .f32⟩
  | .hbm, ⟨30, _⟩ => ⟨S10000x1x128, .f32⟩
  | .hbm, ⟨31, _⟩ => ⟨S1x1x128, .f32⟩
  | .hbm, ⟨32, _⟩ => ⟨S10000x1x128, .f32⟩
  | .hbm, ⟨33, _⟩ => ⟨S10000x1x128, .f32⟩
  | .hbm, ⟨34, _⟩ => ⟨S10000x1x128, .f32⟩
  | .hbm, ⟨35, _⟩ => ⟨S10000x1x128, .f32⟩
  | .hbm, ⟨36, _⟩ => ⟨S_, .f32⟩
  | .hbm, ⟨37, _⟩ => ⟨S10000x1x128, .f32⟩
  | .hbm, ⟨38, _⟩ => ⟨S10000x1x128, .f32⟩
  | .hbm, ⟨39, _⟩ => ⟨S_, .f32⟩
  | .hbm, ⟨40, _⟩ => ⟨S10000x1x128, .f32⟩
  | .hbm, ⟨41, _⟩ => ⟨S10000x1x128, .f32⟩
  | .hbm, ⟨42, _⟩ => ⟨S10000x1x128, .f32⟩
  | .hbm, ⟨43, _⟩ => ⟨S10000x1x384, .f32⟩
  | .hbm, ⟨44, _⟩ => ⟨S1x1x384, .f32⟩
  | .hbm, ⟨45, _⟩ => ⟨S10000x1x384, .f32⟩
  | .hbm, ⟨46, _⟩ => ⟨S10000x1x384, .f32⟩
  | .hbm, ⟨47, _⟩ => ⟨S_, .i32⟩
  | .hbm, ⟨48, _⟩ => ⟨S160000, .i32⟩
  | .hbm, ⟨49, _⟩ => ⟨S160000, .i1⟩
  | .hbm, ⟨50, _⟩ => ⟨S_, .i32⟩
  | .hbm, ⟨51, _⟩ => ⟨S160000, .i32⟩
  | .hbm, ⟨52, _⟩ => ⟨S160000, .i32⟩
  | .hbm, ⟨53, _⟩ => ⟨S160000, .i32⟩
  | .hbm, ⟨54, _⟩ => ⟨S160000x1, .i32⟩
  | .hbm, ⟨55, _⟩ => ⟨S160000x1x384, .f32⟩
  | .hbm, ⟨56, _⟩ => ⟨S160000x1x384, .f32⟩
  | .hbm, ⟨57, _⟩ => ⟨S160000x1x128, .f32⟩
  | .hbm, ⟨58, _⟩ => ⟨S160000x1x128, .f32⟩
  | .hbm, ⟨59, _⟩ => ⟨S160000x1x128, .f32⟩
  | .hbm, ⟨60, _⟩ => ⟨S_, .f32⟩
  | .hbm, ⟨61, _⟩ => ⟨S10000x1x128, .f32⟩
  | .hbm, ⟨62, _⟩ => ⟨S160000x1, .i32⟩
  | .hbm, ⟨63, _⟩ => ⟨S10000x1x128, .f32⟩
  | .hbm, ⟨64, _⟩ => ⟨S_, .i32⟩
  | .hbm, ⟨65, _⟩ => ⟨S160000, .i32⟩
  | .hbm, ⟨66, _⟩ => ⟨S160000, .i1⟩
  | .hbm, ⟨67, _⟩ => ⟨S_, .i32⟩
  | .hbm, ⟨68, _⟩ => ⟨S160000, .i32⟩
  | .hbm, ⟨69, _⟩ => ⟨S160000, .i32⟩
  | .hbm, ⟨70, _⟩ => ⟨S160000, .i32⟩
  | .hbm, ⟨71, _⟩ => ⟨S160000x1, .i32⟩
  | .hbm, ⟨72, _⟩ => ⟨S160000x3x128, .f32⟩
  | .hbm, ⟨73, _⟩ => ⟨S160000x3x128, .f32⟩
  | .hbm, ⟨74, _⟩ => ⟨S160000x3x128, .f32⟩
  | .hbm, ⟨75, _⟩ => ⟨S160000x3x1, .f32⟩
  | .hbm, ⟨76, _⟩ => ⟨S160000x3x128, .f32⟩
  | .hbm, ⟨77, _⟩ => ⟨S160000x3x128, .f32⟩
  | .hbm, ⟨78, _⟩ => ⟨S160000x3x128, .f32⟩
  | .hbm, ⟨79, _⟩ => ⟨S160000x3x128, .f32⟩
  | .hbm, ⟨80, _⟩ => ⟨S_, .f32⟩
  | .hbm, ⟨81, _⟩ => ⟨S10000x3x128, .f32⟩
  | .hbm, ⟨82, _⟩ => ⟨S160000x1, .i32⟩
  | .hbm, ⟨83, _⟩ => ⟨S10000x3x128, .f32⟩
  | .hbm, ⟨84, _⟩ => ⟨S_, .f32⟩
  | .hbm, ⟨85, _⟩ => ⟨S10000x1x128, .f32⟩
  | .hbm, ⟨86, _⟩ => ⟨S10000x1x128, .f32⟩
  | .hbm, ⟨87, _⟩ => ⟨S10000x1x128, .f32⟩
  | .hbm, ⟨88, _⟩ => ⟨S_, .f32⟩
  | .hbm, ⟨89, _⟩ => ⟨S10000x3x128, .f32⟩
  | .hbm, ⟨90, _⟩ => ⟨S10000x3x128, .f32⟩
  | .hbm, ⟨91, _⟩ => ⟨S10000x3x128, .f32⟩
  | _, _ => ⟨S10000x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c : Ref sig .tc := ⟨.hbm, 47, rfl⟩
abbrev main_v26 : Ref sig .tc := ⟨.hbm, 48, rfl⟩
abbrev main_v27 : Ref sig .tc := ⟨.hbm, 49, rfl⟩
abbrev main_c_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_4 : Ref sig .tc := ⟨.hbm, 64, rfl⟩
abbrev main_v40 : Ref sig .tc := ⟨.hbm, 65, rfl⟩
abbrev main_v41 : Ref sig .tc := ⟨.hbm, 66, rfl⟩
abbrev main_c_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  reducesTo_S10000x1x128_S10000x1_d2 : S10000x1x128.ReducesTo [2] S10000x1
  h_S_ : 0 < S_.numel
  bcast_S10000x1_S10000x1x1_0_1 : S10000x1.BroadcastsInDim S10000x1x1 (![0, 1] : Fin 2 → Fin S10000x1x1.rank)
  bcast_S_S10000x1x1 : S_.BroadcastsInDim S10000x1x1 (![] : Fin 0 → Fin S10000x1x1.rank)
  bcast_S10000x1x1_S10000x1x128_0_1_2 : S10000x1x1.BroadcastsInDim S10000x1x128 (![0, 1, 2] : Fin 3 → Fin S10000x1x128.rank)
  bcast_S128_S1x1x128_2 : S128.BroadcastsInDim S1x1x128 (![2] : Fin 1 → Fin S1x1x128.rank)
  bcast_S1x1x128_S10000x1x128_0_1_2 : S1x1x128.BroadcastsInDim S10000x1x128 (![0, 1, 2] : Fin 3 → Fin S10000x1x128.rank)
  bcast_S_S10000x1x128 : S_.BroadcastsInDim S10000x1x128 (![] : Fin 0 → Fin S10000x1x128.rank)
  bcast_S384_S1x1x384_2 : S384.BroadcastsInDim S1x1x384 (![2] : Fin 1 → Fin S1x1x384.rank)
  bcast_S1x1x384_S10000x1x384_0_1_2 : S1x1x384.BroadcastsInDim S10000x1x384 (![0, 1, 2] : Fin 3 → Fin S10000x1x384.rank)
  bcast_S_S160000 : S_.BroadcastsInDim S160000 (![] : Fin 0 → Fin S160000.rank)
  bcast_S160000_S160000x1_0 : S160000.BroadcastsInDim S160000x1 (![0] : Fin 1 → Fin S160000x1.rank)
  slices_S160000x1x384_S160000x1x128_0_0_0 : S160000x1x384.Slices ![0, 0, 0] S160000x1x128
  slices_S160000x1x384_S160000x1x128_0_0_128 : S160000x1x384.Slices ![0, 0, 128] S160000x1x128
  slices_S160000x1x384_S160000x1x128_0_0_256 : S160000x1x384.Slices ![0, 0, 256] S160000x1x128
  bcast_S160000x1x128_S160000x3x128_0_1_2 : S160000x1x128.BroadcastsInDim S160000x3x128 (![0, 1, 2] : Fin 3 → Fin S160000x3x128.rank)
  bcast_S160000x3_S160000x3x1_0_1 : S160000x3.BroadcastsInDim S160000x3x1 (![0, 1] : Fin 2 → Fin S160000x3x1.rank)
  bcast_S160000x3x1_S160000x3x128_0_1_2 : S160000x3x1.BroadcastsInDim S160000x3x128 (![0, 1, 2] : Fin 3 → Fin S160000x3x128.rank)
  bcast_S_S10000x3x128 : S_.BroadcastsInDim S10000x3x128 (![] : Fin 0 → Fin S10000x3x128.rank)
  dot_S10000x1x128_S128x128_S10000x1x128_2_1_01_0_n_n_wf : DotDims.WF S10000x1x128 S128x128 S10000x1x128 [2] [1] [0, 1] [0] [] []
  dot_S10000x1x128_S384x128_S10000x1x384_2_1_01_0_n_n_wf : DotDims.WF S10000x1x128 S384x128 S10000x1x384 [2] [1] [0, 1] [0] [] []
  gather_S10000x1x384_S160000x1_S160000x1x384_12_0_n_n_0_1_11384_wf : GatherDims.WF S10000x1x384 S160000x1 S160000x1x384 [1, 2] [0] [] [0] [] 1 ![1, 1, 384]
  scatter_S10000x1x128_S160000x1_S160000x1x128_12_0_0_1_wf : ScatterDims.WF S10000x1x128 S160000x1 S160000x1x128 [1, 2] [0] [0] 1
  gather_S10000x3x128_S160000x1_S160000x3x128_12_0_n_n_0_1_13128_wf : GatherDims.WF S10000x3x128 S160000x1 S160000x3x128 [1, 2] [0] [] [0] [] 1 ![1, 3, 128]
  scatter_S10000x3x128_S160000x1_S160000x3x128_12_0_0_1_wf : ScatterDims.WF S10000x3x128 S160000x1 S160000x3x128 [1, 2] [0] [0] 1

variable [Facts₀]

def dot_S10000x1x128_S128x128_S10000x1x128_2_1_01_0_n_n : DotDims S10000x1x128 S128x128 S10000x1x128 where
  lhsContracting := [2]
  rhsContracting := [1]
  lhsNonContracting := [0, 1]
  rhsNonContracting := [0]
  lhsBatch := []
  rhsBatch := []
  wf := dot_S10000x1x128_S128x128_S10000x1x128_2_1_01_0_n_n_wf
def dot_S10000x1x128_S384x128_S10000x1x384_2_1_01_0_n_n : DotDims S10000x1x128 S384x128 S10000x1x384 where
  lhsContracting := [2]
  rhsContracting := [1]
  lhsNonContracting := [0, 1]
  rhsNonContracting := [0]
  lhsBatch := []
  rhsBatch := []
  wf := dot_S10000x1x128_S384x128_S10000x1x384_2_1_01_0_n_n_wf
def gather_S10000x1x384_S160000x1_S160000x1x384_12_0_n_n_0_1_11384 : GatherDims S10000x1x384 S160000x1 S160000x1x384 where
  offsetDims := [1, 2]
  collapsedSliceDims := [0]
  operandBatchingDims := []
  startIndicesBatchingDims := []
  startIndexMap := [0]
  indexVectorDim := 1
  sliceSizes := ![1, 1, 384]
  wf := gather_S10000x1x384_S160000x1_S160000x1x384_12_0_n_n_0_1_11384_wf
def scatter_S10000x1x128_S160000x1_S160000x1x128_12_0_0_1 : ScatterDims S10000x1x128 S160000x1 S160000x1x128 where
  updateWindowDims := [1, 2]
  insertedWindowDims := [0]
  scatterDimsToOperandDims := [0]
  indexVectorDim := 1
  wf := scatter_S10000x1x128_S160000x1_S160000x1x128_12_0_0_1_wf
def gather_S10000x3x128_S160000x1_S160000x3x128_12_0_n_n_0_1_13128 : GatherDims S10000x3x128 S160000x1 S160000x3x128 where
  offsetDims := [1, 2]
  collapsedSliceDims := [0]
  operandBatchingDims := []
  startIndicesBatchingDims := []
  startIndexMap := [0]
  indexVectorDim := 1
  sliceSizes := ![1, 3, 128]
  wf := gather_S10000x3x128_S160000x1_S160000x3x128_12_0_n_n_0_1_13128_wf
def scatter_S10000x3x128_S160000x1_S160000x3x128_12_0_0_1 : ScatterDims S10000x3x128 S160000x1 S160000x3x128 where
  updateWindowDims := [1, 2]
  insertedWindowDims := [0]
  scatterDimsToOperandDims := [0]
  indexVectorDim := 1
  wf := scatter_S10000x3x128_S160000x1_S160000x3x128_12_0_0_1_wf

class Facts : Prop extends Facts₀ where

variable [Facts]
-- ==== Proof.Names.lean ====
/-
  Names, of their literal types, for the arrays the value proof speaks of: the ten argument arrays, the two rows of
  the edge list, what the first region finds and leaves (the node network's inputs and its output `phi`), what the
  second region finds (the gathered rows, the filter, the directions) and leaves (the scalar and vector edge terms).
-/
import proofs.«406259_j12489764897067_3_alg».proof.Proof.Gen.KernelIdeal.Frame
import Idealize.ShloMosaic.Lib.ValueIdx

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The arguments -/
abbrev argS (c : Dev nD) : FVec Ideal S10000x1x128 .f32 := m ((c : Thread nD τ).loc main_arg0)
abbrev argV (c : Dev nD) : FVec Ideal S10000x3x128 .f32 := m ((c : Thread nD τ).loc main_arg1)
abbrev argEI (c : Dev nD) : IVec S2x160000 32 := m ((c : Thread nD τ).loc main_arg2)
abbrev argRbf (c : Dev nD) : FVec Ideal S160000x1x384 .f32 := m ((c : Thread nD τ).loc main_arg3)
abbrev argEv (c : Dev nD) : FVec Ideal S160000x3 .f32 := m ((c : Thread nD τ).loc main_arg4)
abbrev argW1 (c : Dev nD) : FVec Ideal S128x128 .f32 := m ((c : Thread nD τ).loc main_arg5)
abbrev argB1 (c : Dev nD) : FVec Ideal S128 .f32 := m ((c : Thread nD τ).loc main_arg6)
abbrev argW2 (c : Dev nD) : FVec Ideal S384x128 .f32 := m ((c : Thread nD τ).loc main_arg7)
abbrev argB2 (c : Dev nD) : FVec Ideal S384 .f32 := m ((c : Thread nD τ).loc main_arg8)
abbrev argRw (c : Dev nD) : FVec Ideal S128 .f32 := m ((c : Thread nD τ).loc main_arg9)

/-! ## The edge list's two rows: destinations `i` (row 0) and sources `j` (row 1) -/
abbrev iArr (c : Dev nD) : IVec S160000 32 :=
  shapeCast S160000 (extractStridedSlice S1x160000 ![0, 0] (argEI m c) slices_S2x160000_S1x160000_0_0) shapeCasts_S1x160000_S160000
abbrev jArr (c : Dev nD) : IVec S160000 32 :=
  shapeCast S160000 (extractStridedSlice S1x160000 ![1, 0] (argEI m c) slices_S2x160000_S1x160000_1_0) shapeCasts_S1x160000_S160000

/-- The node a row-gather reads for edge `e`: the index word read signed, clamped into the table. -/
def nodeOf (j : IVec S160000 32) (e : Fin 160000) : Fin 10000 := ⟨min (j (ix1 e)).toInt.toNat 9999, by omega⟩

/-- Every source index is a node's. -/
def InRange (c : Dev nD) : Prop := ∀ e : Fin 160000, 0 ≤ (jArr m c (ix1 e)).toInt ∧ (jArr m c (ix1 e)).toInt < 10000

/-! ## The first region (the node network): what it finds and what it leaves -/
abbrev s2Arr (c : Dev nD) : FVec Ideal S10000x128 .f32 := V1 m ρ c main_v6
abbrev w1tArr (c : Dev nD) : FVec Ideal S128x128 .f32 := V1 m ρ c main_v4
abbrev b1Arr (c : Dev nD) : FVec Ideal S128 .f32 := V1 m ρ c main_arg6
abbrev w2tArr (c : Dev nD) : FVec Ideal S128x384 .f32 := V1 m ρ c main_v5
abbrev b2Arr (c : Dev nD) : FVec Ideal S384 .f32 := V1 m ρ c main_arg8
abbrev rwArr (c : Dev nD) : FVec Ideal S128 .f32 := V1 m ρ c main_arg9
abbrev phiArr (c : Dev nD) : FVec Ideal S10000x384 .f32 := (dat0 (V1 m ρ) c).arrAt 6 cfg0.N

/-! ## The second region (the edge terms): what it finds and what it leaves -/
abbrev pgArr (c : Dev nD) : FVec Ideal S160000x384 .f32 := V6 m ρ c main_v8
abbrev rbf2Arr (c : Dev nD) : FVec Ideal S160000x384 .f32 := V6 m ρ c main_v11
abbrev vgArr (c : Dev nD) : FVec Ideal S160000x384 .f32 := V6 m ρ c main_v10
abbrev evArr (c : Dev nD) : FVec Ideal S160000x3 .f32 := V6 m ρ c main_arg4
abbrev msArr (c : Dev nD) : FVec Ideal S160000x128 .f32 := (dat1 (V6 m ρ) c).arrAt 4 cfg1.N
abbrev gateArr (c : Dev nD) : FVec Ideal S160000x384 .f32 := (dat1 (V6 m ρ) c).arrAt 5 cfg1.N

/-- The first region's output array is the buffer the gathers read. -/
theorem arrRef0_6 : Pipeline.arrRef spec0 6 = main_v7 := rfl
theorem arrRef1_4 : Pipeline.arrRef spec1 4 = main_v12_0 := rfl
theorem arrRef1_5 : Pipeline.arrRef spec1 5 = main_v12_1 := rfl

end Cert.KernelIdeal.KV

end
-- ==== Proof.PreDecode.lean ====
/-
  The precondition's last conjunct, read: every source index of the edge list is a node's, `0 ≤ j < 10000`.
-/
import proofs.«406259_j12489764897067_3_alg».proof.Proof.Names
import proofs.«406259_j12489764897067_3_alg».proof.Proof.Gen.Pre_finite_inputs
import proofs.«406259_j12489764897067_3_alg».proof.Defs
import Idealize.ShloMosaic.Lib.ReduceAll
import Idealize.ShloMosaic.Lib.StableHlo.Predicate

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx

/-- Under the precondition the edge list's source row is in range. -/
theorem inRange_of_pre [hP : Cert.Pre_finite_inputs.Facts] (m : (ℓ : Loc nD τ sig) → Buf (Elt Ideal) ℓ)
    (h : Cert.Pre_KernelIdeal m) (c : Dev nD) : InRange m c := by
  intro e
  -- the predicate's result is a scalar: its shape has one index
  haveI hS : Subsingleton Cert.Pre_finite_inputs.S_.Idx := ⟨fun a b => funext fun d => d.elim0⟩
  -- the predicate at that index is 1; unfolded, it is a chain of conjunctions whose last conjunct is
  -- "for all edges e, 0 ≤ j[e] and j[e] < 10000", the comparisons signed
  have e0 := congrFun (h c) ValueIdx.ix0
  dsimp only [Cert.Pre_finite_inputs.fn, Cert.Pre_finite_inputs.fn_part1, Cert.Pre_finite_inputs.fn_part2,
    Cert.Pre_finite_inputs.fn_part3] at e0
  -- drop the nine finiteness tests, keep the last conjunct
  have e1 := (IntOp.andi_eq_one.1 e0).2
  clear e0
  -- a conjunction over all edges that is 1 is 1 at edge e
  have e2 := Host.reduce_andi_all _ _ _ _ _ e1 (ix1 e)
  clear e1
  obtain ⟨hge, hlt⟩ := IntOp.andi_eq_one.1 e2
  clear e2
  -- each signed comparison that is 1 orders its operands' signed values
  have hge' := IntOp.cmpi_sge.1 hge
  have hlt' := IntOp.cmpi_slt.1 hlt
  -- the right operands are the scalars 0 and 10000 broadcast: at every edge they read 0 and 10000
  rw [StableHlo.Predicate.bcast_scalar _ Cert.Pre_finite_inputs.Facts.h_S_] at hge' hlt'
  have z0 : (0#32 : BitVec 32).toInt = 0 := by decide
  have z1 : (10000#32 : BitVec 32).toInt = 10000 := by decide
  -- the left operand is the source row itself (jArr m c) at edge e
  exact ⟨z0 ▸ hge', z1 ▸ hlt'⟩

end Cert.KernelIdeal.KV

end
-- ==== Proof.Tail.lean ====
/-
  The two results, as the last stretch of host operations leaves them: the node features plus the scalar edge terms
  summed over each destination node (a [nodes, 128] table given back its unit axis), and the vector features plus the
  vector edge terms (their 384 columns split into three components of 128) summed the same way.
-/
import proofs.«406259_j12489764897067_3_alg».proof.Proof.Names
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The destination indices as the scatters take them: a column of index vectors of length one. -/
abbrev iCol (c : Dev nD) : IVec S160000x1 32 := broadcastInDim S160000x1 ![0] bcast_S160000_S160000x1_0 (iArr m c)

/-- A buffer that no operation of a stretch of host operations writes holds after the stretch what it held before:
    every operation's written reference is compared with the buffer's, and all differ. -/
local macro "keeps_over " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The destination indices: written by the first stretch, untouched from then on -/

/-- The first stretch leaves the edge list's row 0, flattened, in `main_v1`. -/
theorem W1_v1 (c : Dev nD) : W1 m ρ c (Proc.devRef .tc main_v1) = iArr m c := by
  show StableHlo.after hostOps0 (W0 m ρ c) (Proc.devRef .tc main_v1) = _
  after_results
  all_goals rfl

/-- The first region does not write it. -/
theorem W2_v1 (c : Dev nD) : W2 m ρ c (Proc.devRef .tc main_v1) = W1 m ρ c (Proc.devRef .tc main_v1) :=
  W2_of_ne m ρ c main_v1 (by decide)

/-- Nor does the first gather's stretch. -/
theorem W3_v1 (c : Dev nD) : W3 m ρ c (Proc.devRef .tc main_v1) = W2 m ρ c (Proc.devRef .tc main_v1) := by
  keeps_over hostOps1

theorem W4_v1 (c : Dev nD) : W4 m ρ c (Proc.devRef .tc main_v1) = W3 m ρ c (Proc.devRef .tc main_v1) := by
  keeps_over hostOps1_1

/-- Nor the second gather's. -/
theorem W5_v1 (c : Dev nD) : W5 m ρ c (Proc.devRef .tc main_v1) = W4 m ρ c (Proc.devRef .tc main_v1) := by
  keeps_over hostOps1_2

theorem W6_v1 (c : Dev nD) : W6 m ρ c (Proc.devRef .tc main_v1) = W5 m ρ c (Proc.devRef .tc main_v1) := by
  keeps_over hostOps1_3

/-- Nor the second region. -/
theorem W7_v1' (c : Dev nD) : W7 m ρ c (Proc.devRef .tc main_v1) = W6 m ρ c (Proc.devRef .tc main_v1) :=
  W7_of_ne m ρ c main_v1 (by decide)

/-- So the last stretch finds the destination indices in `main_v1`. -/
theorem W7_v1 (c : Dev nD) : W7 m ρ c (Proc.devRef .tc main_v1) = iArr m c :=
  (W7_v1' m ρ c).trans <| (W6_v1 m ρ c).trans <| (W5_v1 m ρ c).trans <| (W4_v1 m ρ c).trans <|
    (W3_v1 m ρ c).trans <| (W2_v1 m ρ c).trans (W1_v1 m ρ c)

/-! ## The two arguments the results add to: as launched -/

/-- The last stretch does not write the node features' buffer, which ends as launched; so it finds it as launched. -/
theorem W7_arg0 (c : Dev nD) : W7 m ρ c (Proc.devRef .tc main_arg0) = argS m c := by
  have h : W8 m ρ c (Proc.devRef .tc main_arg0) = W7 m ρ c (Proc.devRef .tc main_arg0) := by
    keeps_over hostOps2
  exact h.symm.trans (W8_main_arg0 m ρ c)

theorem W7_arg1 (c : Dev nD) : W7 m ρ c (Proc.devRef .tc main_arg1) = argV m c := by
  have h : W8 m ρ c (Proc.devRef .tc main_arg1) = W7 m ρ c (Proc.devRef .tc main_arg1) := by
    keeps_over hostOps2
  exact h.symm.trans (W8_main_arg1 m ρ c)

/-! ## The second region's two outputs -/

/-- The scalar edge terms are what the second region leaves in `main_v12_0`. -/
theorem W7_ms (c : Dev nD) : W7 m ρ c (Proc.devRef .tc main_v12_0) = msArr m ρ c := by
  show W7 m ρ c (Proc.devRef .tc (Pipeline.arrRef spec1 4)) = _
  exact W7_arr m ρ c 4

/-- The vector edge terms are what it leaves in `main_v12_1`. -/
theorem W7_gate (c : Dev nD) : W7 m ρ c (Proc.devRef .tc main_v12_1) = gateArr m ρ c := by
  show W7 m ρ c (Proc.devRef .tc (Pipeline.arrRef spec1 5)) = _
  exact W7_arr m ρ c 5

/-! ## The results -/

theorem out0_eq (c : Dev nD) :
    W8 m ρ c (Proc.devRef .tc main_v21)
      = addf (argS m c) (shapeCast S10000x1x128
          (Host.scatterAdd scatter_S10000x128_S160000x1_S160000x128_1_0_0_1
            (broadcastInDim S10000x128 ![] bcast_S_S10000x128 (constant (F := Ideal) S_ .f32 0x00000000#32)) (iCol m c) (msArr m ρ c))
          shapeCasts_S10000x128_S10000x1x128) := by
  show StableHlo.after hostOps2 (W7 m ρ c) (Proc.devRef .tc main_v21) = _
  after_results
  rw [W7_arg0 m ρ c, W7_v1 m ρ c, W7_ms m ρ c]
  rfl

theorem out1_eq (c : Dev nD) :
    W8 m ρ c (Proc.devRef .tc main_v22)
      = addf (argV m c) (Host.scatterAdd scatter_S10000x3x128_S160000x1_S160000x3x128_12_0_0_1
          (broadcastInDim S10000x3x128 ![] bcast_S_S10000x3x128 (constant (F := Ideal) S_ .f32 0x00000000#32)) (iCol m c)
          (shapeCast S160000x3x128 (gateArr m ρ c) shapeCasts_S160000x384_S160000x3x128)) := by
  show StableHlo.after hostOps2 (W7 m ρ c) (Proc.devRef .tc main_v22) = _
  after_results
  rw [W7_arg1 m ρ c, W7_v1 m ρ c, W7_gate m ρ c]
  rfl

end Cert.KernelIdeal.KV

end
-- ==== Proof.HostMid.lean ====
/-
  What the second region finds. The row-gathers by the source index, with the index in range, hand edge `e` the row of
  the node it names — of the node network's output and of the vector features flattened to 384 columns; the filter
  arrives with its unit axis dropped and the directions as launched.
-/
import proofs.«406259_j12489764897067_3_alg».proof.Proof.Names
import Idealize.ShloMosaic.Lib.StableHlo.Run
import Idealize.ShloMosaic.Lib.StableHlo.Predicate
import Idealize.ShloMosaic.Lib.Pipeline.Value

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## The row-gather by a wrapped, clamped and masked index column, read at an element

A row-gather `x[j]` of a table `x` of 10000 rows at 160000 indices `j` is: the indices below zero wrapped by the table's
length; the wrapped indices as a column; a mask, per index, of "at least 0 and at most 9999"; the gather proper, which
reads each index signed and clamps it into the table; and a select of the gathered row under the mask, of a fill where
the mask is off. With every index in `[0, 10000)` nothing is wrapped, the mask is on everywhere, and the row gathered
for index `e` is the table's row `j e`. -/

/-- The row-gather's dimension numbers. -/
abbrev takeG := gather_S10000x384_S160000x1_S160000x384_1_0_n_n_0_1_1384

/-- The index column of the row-gather: a negative index wrapped by the table's length, as a column. -/
def takeIdx (j : IVec S160000 32) : IVec S160000x1 32 :=
  broadcastInDim S160000x1 ![0] bcast_S160000_S160000x1_0
    (select (cmpi .slt j (broadcastInDim S160000 ![] bcast_S_S160000 (constantI S_ 32 0#32)))
      (addi j (broadcastInDim S160000 ![] bcast_S_S160000 (constantI S_ 32 10000#32))) j)

/-- Whether the index column's entry names a row of the table. -/
def takeOk (j : IVec S160000 32) : IVec S160000x1 1 :=
  andi (cmpi .sge (takeIdx j) (broadcastInDim S160000x1 ![] bcast_S_S160000x1 (constantI S_ 32 0#32)))
    (cmpi .sle (takeIdx j) (broadcastInDim S160000x1 ![0, 1] bcast_S1x1_S160000x1_0_1
      (broadcastInDim S1x1 ![1] bcast_S1_S1x1_1 (constantI S1 32 9999#32))))

/-- The row-gather: the gathered rows where the index is in range, the fill elsewhere. -/
def takeVal {α : Type} (x : S10000x384.Idx → α) (j : IVec S160000 32) (fill : S160000x384.Idx → α) : S160000x384.Idx → α :=
  select (broadcastInDim S160000x384 ![0] bcast_S160000_S160000x384_0
      (Host.reduce IntOp.andi (takeOk j) (constantI S_ 1 1#1) reducesTo_S160000x1_S160000_d1 h_S_))
    (Host.gather takeG x (takeIdx j)) fill

/-- The fill of the row-gather: the word `0x7FC00000` everywhere. -/
abbrev takeFill : FVec Ideal S160000x384 .f32 :=
  broadcastInDim S160000x384 ![] bcast_S_S160000x384 (constant (F := Ideal) S_ .f32 0x7FC00000#32)

/-- A non-negative word is not wrapped. -/
theorem wrap_eq {w : BitVec 32} (h0 : 0 ≤ w.toInt) :
    Scalar.select (IntOp.cmpi .slt w 0#32) (IntOp.addi w 10000#32) w = w := by
  have h : w.slt 0#32 = false := by
    simp only [BitVec.slt, BitVec.toInt_zero, decide_eq_false_iff_not, not_lt]; exact h0
  have hc : IntOp.cmpi .slt w 0#32 = 0#1 := by simp only [IntOp.cmpi, h]; rfl
  rw [hc]; exact select_zero _ _

/-- A word in `[0, 9999]` passes both range compares. -/
theorem inrange_eq {w : BitVec 32} (h0 : 0 ≤ w.toInt) (h1 : w.toInt < 10000) :
    IntOp.andi (IntOp.cmpi .sge w 0#32) (IntOp.cmpi .sle w 9999#32) = 1#1 := by
  have ha : (0#32 : BitVec 32).sle w = true := by
    simp only [BitVec.sle, BitVec.toInt_zero, decide_eq_true_eq]; exact h0
  have h9 : (9999#32 : BitVec 32).toInt = 9999 := by decide
  have hb : w.sle 9999#32 = true := by
    simp only [BitVec.sle, h9, decide_eq_true_eq]; omega
  simp only [IntOp.cmpi, ha, hb]; rfl

/-- The index column's entry of row `e`. -/
theorem takeIdx_apply (j : IVec S160000 32) (e : Fin 160000) (z : Fin 1) :
    takeIdx j (ix2 e z)
      = Scalar.select (IntOp.cmpi .slt (j (ix1 e)) 0#32) (IntOp.addi (j (ix1 e)) 10000#32) (j (ix1 e)) := by
  unfold takeIdx
  rw [broadcastInDim_apply _ _ _ (ix2 e z) (ix1 e) (fun a => by match a with | ⟨0, _⟩ => rfl)]
  rfl

/-- With every index in range the index column is the indices themselves. -/
theorem takeIdx_eq (j : IVec S160000 32) (hj : ∀ e : Fin 160000, 0 ≤ (j (ix1 e)).toInt ∧ (j (ix1 e)).toInt < 10000)
    (e : Fin 160000) (z : Fin 1) : takeIdx j (ix2 e z) = j (ix1 e) := by
  rw [takeIdx_apply, wrap_eq (hj e).1]

/-- With every index in range every entry of the column passes. -/
theorem takeOk_eq (j : IVec S160000 32) (hj : ∀ e : Fin 160000, 0 ≤ (j (ix1 e)).toInt ∧ (j (ix1 e)).toInt < 10000)
    (i : S160000x1.Idx) : takeOk j i = 1#1 := by
  obtain ⟨e, z, rfl⟩ : ∃ (e : Fin 160000) (z : Fin 1), i = ix2 e z := ⟨i 0, i 1, eq_ix2 i⟩
  show IntOp.andi (IntOp.cmpi .sge (takeIdx j (ix2 e z)) 0#32) (IntOp.cmpi .sle (takeIdx j (ix2 e z)) 9999#32) = 1#1
  rw [takeIdx_eq j hj]
  exact inrange_eq (hj e).1 (hj e).2

/-- A left fold of the bitwise and over entries that are all one, from one, is one. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from rfl]
    exact foldl_andi_one x hx l

/-- With every index in range the mask, reduced over the column's unit axis, is one everywhere. -/
theorem takeMask_eq (j : IVec S160000 32) (hj : ∀ e : Fin 160000, 0 ≤ (j (ix1 e)).toInt ∧ (j (ix1 e)).toInt < 10000)
    (p : S160000.Idx) :
    Host.reduce IntOp.andi (takeOk j) (constantI S_ 1 1#1) reducesTo_S160000x1_S160000_d1 h_S_ p = 1#1 := by
  rw [Host.reduce_eq_foldl]
  exact foldl_andi_one _ (takeOk_eq j hj) _

/-- The gather proper read at `(e, d)`: the table at column `d` of the row that the index column's entry `e` names, read
    signed and clamped into the table. Axis 0 of the table is collapsed and start-indexed (its coordinate is the clamped
    start, no batch or offset part); axis 1 is the one offset axis, whole (its coordinate is the result's). -/
theorem gather_row {α : Type} {w : Nat} (x : S10000x384.Idx → α) (idx : IVec S160000x1 w) (e : Fin 160000) (d : Fin 384) :
    Host.gather takeG x idx (ix2 e d)
      = x (ix2 (⟨min (idx (ix2 e (0 : Fin 1))).toInt.toNat 9999, by omega⟩ : Fin 10000) d) := by
  unfold Host.gather
  congr 1
  funext a
  apply Fin.ext
  have hob : takeG.operandBatchingDims = [] := rfl
  have hcoll : takeG.collapsedSliceDims = [0] := rfl
  have hsim : takeG.startIndexMap = [0] := rfl
  match a with
  | ⟨0, _⟩ =>
    have hb : (0 : Fin 2) ∉ takeG.operandBatchingDims := by rw [hob]; exact List.not_mem_nil
    have hk : (0 : Fin 2) ∉ takeG.sKept := by rw [GatherDims.mem_sKept, hcoll]; simp
    have hm : (0 : Fin 2) ∈ takeG.startIndexMap := by rw [hsim]; exact List.mem_singleton.mpr rfl
    have hsi : takeG.siIdx (ix2 e d) ⟨List.idxOf (0 : Fin 2) takeG.startIndexMap, List.idxOf_lt_length_iff.2 hm⟩
        = ix2 e (0 : Fin 1) := by
      funext b; refine Fin.ext ?_
      match b with
      | ⟨0, _⟩ => rfl
      | ⟨1, _⟩ => rfl
    show takeG.start (ix2 e d) idx 0 + takeG.batchCoord (ix2 e d) 0 + takeG.offCoord (ix2 e d) 0 = _
    rw [GatherDims.batchCoord_eq_zero _ _ _ hb, GatherDims.offCoord_eq_zero _ _ _ hk]
    simp only [Nat.add_zero]
    unfold GatherDims.start
    rw [dif_pos hm, hsi]
    rfl
  | ⟨1, _⟩ =>
    have hb : (1 : Fin 2) ∉ takeG.operandBatchingDims := by rw [hob]; exact List.not_mem_nil
    have hm : (1 : Fin 2) ∉ takeG.startIndexMap := by rw [hsim]; decide
    show takeG.start (ix2 e d) idx 1 + takeG.batchCoord (ix2 e d) 1 + takeG.offCoord (ix2 e d) 1 = _
    rw [GatherDims.batchCoord_eq_zero _ _ _ hb]
    unfold GatherDims.start
    rw [dif_neg hm]
    simp only [Nat.add_zero, Nat.zero_add]
    rfl

/-- THE ROW-GATHER READ AT `(e, d)`, every index in range: the table's row `j e`, column `d`. -/
theorem takeVal_apply {α : Type} (x : S10000x384.Idx → α) (j : IVec S160000 32) (fill : S160000x384.Idx → α)
    (hj : ∀ e : Fin 160000, 0 ≤ (j (ix1 e)).toInt ∧ (j (ix1 e)).toInt < 10000) (e : Fin 160000) (d : Fin 384) :
    takeVal x j fill (ix2 e d) = x (ix2 (nodeOf j e) d) := by
  unfold takeVal
  rw [select_apply, broadcastInDim_apply _ _ _ (ix2 e d) (ix1 e) (fun a => by match a with | ⟨0, _⟩ => rfl),
    takeMask_eq j hj, select_one, gather_row]
  refine congrArg (fun r : Fin 10000 => x (ix2 r d)) (Fin.ext ?_)
  show min (takeIdx j (ix2 e (0 : Fin 1))).toInt.toNat 9999 = min (j (ix1 e)).toInt.toNat 9999
  rw [takeIdx_eq j hj]

/-! ## The buffers over the stretches between the two regions

A buffer none of a stretch's operations writes, and no array of a region, keeps its contents over it; a buffer a
stretch writes holds the stretch's composed term of what the stretch found. -/

/-- A buffer none of a stretch's operations writes keeps its contents over the stretch. -/
macro "host_keep" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ### The filter: launched, untouched up to the reshape that drops its unit axis -/

theorem W2_arg3 (c : Dev nD) : W2 m ρ c (Proc.devRef .tc main_arg3) = argRbf m c :=
  calc W2 m ρ c (Proc.devRef .tc main_arg3)
    _ = W1 m ρ c (Proc.devRef .tc main_arg3) := W2_of_ne m ρ c main_arg3 (by decide)
    _ = W0 m ρ c (Proc.devRef .tc main_arg3) := by host_keep hostOps0
    _ = argRbf m c := rfl

theorem W5_arg3 (c : Dev nD) : W5 m ρ c (Proc.devRef .tc main_arg3) = argRbf m c :=
  calc W5 m ρ c (Proc.devRef .tc main_arg3)
    _ = W4 m ρ c (Proc.devRef .tc main_arg3) := by host_keep hostOps1_2
    _ = W3 m ρ c (Proc.devRef .tc main_arg3) := by host_keep hostOps1_1
    _ = W2 m ρ c (Proc.devRef .tc main_arg3) := by host_keep hostOps1
    _ = argRbf m c := W2_arg3 m ρ c

/-- The last stretch before the second region reshapes the filter's buffer into its own result. -/
theorem after_hostOps1_3_v11 (V : Valuation τ sig (Elt Ideal)) :
    StableHlo.after hostOps1_3 V (Proc.devRef .tc main_v11)
      = shapeCast S160000x384 (V (Proc.devRef .tc main_arg3) : FVec Ideal S160000x1x384 .f32)
          shapeCasts_S160000x1x384_S160000x384 := by
  after_results
  all_goals rfl

/-- The filter, its unit axis dropped. -/
theorem rbf2Arr_eq (c : Dev nD) :
    rbf2Arr m ρ c = shapeCast S160000x384 (argRbf m c) shapeCasts_S160000x1x384_S160000x384 := by
  show StableHlo.after hostOps1_3 (W5 m ρ c) (Proc.devRef .tc main_v11) = _
  rw [after_hostOps1_3_v11, W5_arg3]

/-! ### The directions: launched, never written -/

theorem W2_arg4 (c : Dev nD) : W2 m ρ c (Proc.devRef .tc main_arg4) = argEv m c :=
  calc W2 m ρ c (Proc.devRef .tc main_arg4)
    _ = W1 m ρ c (Proc.devRef .tc main_arg4) := W2_of_ne m ρ c main_arg4 (by decide)
    _ = W0 m ρ c (Proc.devRef .tc main_arg4) := by host_keep hostOps0
    _ = argEv m c := rfl

/-- The directions, as launched. -/
theorem evArr_eq (c : Dev nD) : evArr m ρ c = argEv m c :=
  calc W6 m ρ c (Proc.devRef .tc main_arg4)
    _ = W5 m ρ c (Proc.devRef .tc main_arg4) := by host_keep hostOps1_3
    _ = W4 m ρ c (Proc.devRef .tc main_arg4) := by host_keep hostOps1_2
    _ = W3 m ρ c (Proc.devRef .tc main_arg4) := by host_keep hostOps1_1
    _ = W2 m ρ c (Proc.devRef .tc main_arg4) := by host_keep hostOps1
    _ = argEv m c := W2_arg4 m ρ c

/-! ### The source indices: row 1 of the edge list, written before the first region and read by both row-gathers -/

/-- The first stretch leaves row 1 of the edge list, as a vector, in the indices' buffer. -/
theorem W1_v3 (c : Dev nD) : W1 m ρ c (Proc.devRef .tc main_v3) = jArr m c := by
  show StableHlo.after hostOps0 (W0 m ρ c) (Proc.devRef .tc main_v3) = _
  after_results
  all_goals rfl

theorem W2_v3 (c : Dev nD) : W2 m ρ c (Proc.devRef .tc main_v3) = jArr m c :=
  (W2_of_ne m ρ c main_v3 (by decide)).trans (W1_v3 m ρ c)

theorem W4_v3 (c : Dev nD) : W4 m ρ c (Proc.devRef .tc main_v3) = jArr m c :=
  calc W4 m ρ c (Proc.devRef .tc main_v3)
    _ = W3 m ρ c (Proc.devRef .tc main_v3) := by host_keep hostOps1_1
    _ = W2 m ρ c (Proc.devRef .tc main_v3) := by host_keep hostOps1
    _ = jArr m c := W2_v3 m ρ c

/-! ### The first row-gather: of the first region's output array -/

/-- The first region leaves the node network's output in the buffer the first row-gather reads. -/
theorem W2_v7 (c : Dev nD) : W2 m ρ c (Proc.devRef .tc main_v7) = phiArr m ρ c :=
  W2_arr m ρ c 6

/-- The first row-gather's stretch leaves in its result buffer the row-gather of what it found in the table's and the
    indices' buffers. -/
theorem after_hostOps1_v8 (V : Valuation τ sig (Elt Ideal)) :
    StableHlo.after hostOps1 V (Proc.devRef .tc main_v8)
      = takeVal (V (Proc.devRef .tc main_v7) : FVec Ideal S10000x384 .f32) (V (Proc.devRef .tc main_v3)) takeFill := by
  after_results_simp
  simp only [TRef.ofBuf, TRef.toBuf, cast_eq]
  rfl

/-- What the second region finds in the first row-gather's result buffer. -/
theorem pgArr_eq (c : Dev nD) : pgArr m ρ c = takeVal (phiArr m ρ c) (jArr m c) takeFill :=
  calc W6 m ρ c (Proc.devRef .tc main_v8)
    _ = W5 m ρ c (Proc.devRef .tc main_v8) := by host_keep hostOps1_3
    _ = W4 m ρ c (Proc.devRef .tc main_v8) := by host_keep hostOps1_2
    _ = W3 m ρ c (Proc.devRef .tc main_v8) := by host_keep hostOps1_1
    _ = takeVal (W2 m ρ c (Proc.devRef .tc main_v7) : FVec Ideal S10000x384 .f32) (W2 m ρ c (Proc.devRef .tc main_v3)) takeFill :=
        after_hostOps1_v8 (W2 m ρ c)
    _ = takeVal (phiArr m ρ c) (jArr m c) takeFill := by rw [W2_v7, W2_v3]

/-- Edge `e`'s gathered row of the node network's output. -/
theorem pgArr_apply (c : Dev nD) (hj : InRange m c) (e : Fin 160000) (d : Fin 384) :
    pgArr m ρ c (ix2 e d) = phiArr m ρ c (ix2 (nodeOf (jArr m c) e) d) := by
  rw [pgArr_eq, takeVal_apply _ _ _ hj]

/-! ### The second row-gather: of the vector features, flattened to 384 columns -/

theorem W3_arg1 (c : Dev nD) : W3 m ρ c (Proc.devRef .tc main_arg1) = argV m c :=
  calc W3 m ρ c (Proc.devRef .tc main_arg1)
    _ = W2 m ρ c (Proc.devRef .tc main_arg1) := by host_keep hostOps1
    _ = W1 m ρ c (Proc.devRef .tc main_arg1) := W2_of_ne m ρ c main_arg1 (by decide)
    _ = W0 m ρ c (Proc.devRef .tc main_arg1) := by host_keep hostOps0
    _ = argV m c := rfl

/-- The stretch between the row-gathers reshapes the vector features' buffer into the second table's. -/
theorem after_hostOps1_1_v9 (V : Valuation τ sig (Elt Ideal)) :
    StableHlo.after hostOps1_1 V (Proc.devRef .tc main_v9)
      = shapeCast S10000x384 (V (Proc.devRef .tc main_arg1) : FVec Ideal S10000x3x128 .f32)
          shapeCasts_S10000x3x128_S10000x384 := by
  after_results
  all_goals rfl

theorem W4_v9 (c : Dev nD) :
    W4 m ρ c (Proc.devRef .tc main_v9) = shapeCast S10000x384 (argV m c) shapeCasts_S10000x3x128_S10000x384 := by
  show StableHlo.after hostOps1_1 (W3 m ρ c) (Proc.devRef .tc main_v9) = _
  rw [after_hostOps1_1_v9, W3_arg1]

/-- The second row-gather's stretch leaves in its result buffer the row-gather of what it found in the table's and the
    indices' buffers. -/
theorem after_hostOps1_2_v10 (V : Valuation τ sig (Elt Ideal)) :
    StableHlo.after hostOps1_2 V (Proc.devRef .tc main_v10)
      = takeVal (V (Proc.devRef .tc main_v9) : FVec Ideal S10000x384 .f32) (V (Proc.devRef .tc main_v3)) takeFill := by
  after_results_simp
  simp only [TRef.ofBuf, TRef.toBuf, cast_eq]
  rfl

/-- What the second region finds in the second row-gather's result buffer. -/
theorem vgArr_eq (c : Dev nD) :
    vgArr m ρ c = takeVal (shapeCast S10000x384 (argV m c) shapeCasts_S10000x3x128_S10000x384) (jArr m c) takeFill :=
  calc W6 m ρ c (Proc.devRef .tc main_v10)
    _ = W5 m ρ c (Proc.devRef .tc main_v10) := by host_keep hostOps1_3
    _ = takeVal (W4 m ρ c (Proc.devRef .tc main_v9) : FVec Ideal S10000x384 .f32) (W4 m ρ c (Proc.devRef .tc main_v3)) takeFill :=
        after_hostOps1_2_v10 (W4 m ρ c)
    _ = takeVal (shapeCast S10000x384 (argV m c) shapeCasts_S10000x3x128_S10000x384) (jArr m c) takeFill := by
        rw [W4_v9, W4_v3]

/-- Edge `e`'s gathered row of the vector features (three components of 128, flattened). -/
theorem vgArr_apply (c : Dev nD) (hj : InRange m c) (e : Fin 160000) (d : Fin 384) :
    vgArr m ρ c (ix2 e d)
      = shapeCast S10000x384 (argV m c) shapeCasts_S10000x3x128_S10000x384 (ix2 (nodeOf (jArr m c) e) d) := by
  rw [vgArr_eq, takeVal_apply _ _ _ hj]

end Cert.KernelIdeal.KV

end
-- ==== Proof.HostEntry.lean ====
/-
  What the first region finds: the node features with the unit axis dropped, the two weight matrices transposed, the
  biases and the norm's gain as launched.
-/
import proofs.«406259_j12489764897067_3_alg».proof.Proof.Names
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

theorem s2Arr_eq (c : Dev nD) :
    s2Arr m ρ c = shapeCast S10000x128 (argS m c) shapeCasts_S10000x1x128_S10000x128 := by
  show StableHlo.after hostOps0 (W0 m ρ c) (Proc.devRef .tc main_v6) = _
  after_results
  all_goals rfl

theorem w1tArr_eq (c : Dev nD) :
    w1tArr m ρ c = transpose S128x128 [1, 0] (argW1 m c) transposes_S128x128_S128x128_1_0 := by
  show StableHlo.after hostOps0 (W0 m ρ c) (Proc.devRef .tc main_v4) = _
  after_results
  all_goals rfl

theorem w2tArr_eq (c : Dev nD) :
    w2tArr m ρ c = transpose S128x384 [1, 0] (argW2 m c) transposes_S384x128_S128x384_1_0 := by
  show StableHlo.after hostOps0 (W0 m ρ c) (Proc.devRef .tc main_v5) = _
  after_results
  all_goals rfl

theorem b1Arr_eq (c : Dev nD) : b1Arr m ρ c = argB1 m c := by
  show StableHlo.after hostOps0 (W0 m ρ c) (Proc.devRef .tc main_arg6) = _
  after_results
  all_goals rfl

theorem b2Arr_eq (c : Dev nD) : b2Arr m ρ c = argB2 m c := by
  show StableHlo.after hostOps0 (W0 m ρ c) (Proc.devRef .tc main_arg8) = _
  after_results
  all_goals rfl

theorem rwArr_eq (c : Dev nD) : rwArr m ρ c = argRw m c := by
  show StableHlo.after hostOps0 (W0 m ρ c) (Proc.devRef .tc main_arg9) = _
  after_results
  all_goals rfl

end Cert.KernelIdeal.KV

end
-- ==== Proof.Spec.lean ====
/-
  The mathematics both programs compute, written once on the extended reals and over plain coordinates.

  A node's feature row `s : Fin 128 → EReal` is normalised by the root of the mean of its squares,
  `s c · (mean(s²) + ε)^(-1/2) · rw c`; a first linear layer with bias followed by `x · logistic x` gives the
  128 hidden values, a second linear layer with bias the 384 outputs `phi`.
  Along an edge the three 128-wide thirds of `phi(source) · rbf(edge)` weight the scalar message, the source's
  vector features and the edge's direction. One program scales every edge term by `1/16` before the sums over
  the edges of a destination node, the other scales the sums: equal, because multiplying by a nonnegative real
  distributes over every sum of extended reals (`scale_sum`), infinite terms included.
-/
import Idealize.ShloMosaic.PureOps.Ideal
import Idealize.ShloMosaic.PureOps.Ideal.Laws
import Mathlib.Data.EReal.Operations

noncomputable section

namespace Cert.Spec

open Idealize.ShloMosaic

/-- The word of `128.0`, of the norm's `ε`, and of the edge scale `1/16`, read at the ideal instance. -/
abbrev c128 : EReal := Ideal.ofBits .f32 0x43000000#32
abbrev cEps : EReal := Ideal.ofBits .f32 0x34000000#32
abbrev κ : EReal := Ideal.ofBits .f32 0x3D800000#32

/-- `(mean of squares + ε)^(-1/2)` of one row. -/
def rinv (s : Fin 128 → EReal) : EReal :=
  Ideal.rsqrt (Ideal.div (∑ c : Fin 128, s c * s c) c128 + cEps)

/-- The normalised row, entry `c`. -/
def snorm (s rw : Fin 128 → EReal) (c : Fin 128) : EReal := s c * rinv s * rw c

/-- Hidden unit `k` before the activation: the first layer's row `k` against the normalised row, plus its bias. -/
def pre1 (s rw : Fin 128 → EReal) (w1 : Fin 128 → Fin 128 → EReal) (b1 : Fin 128 → EReal) (k : Fin 128) : EReal :=
  (∑ c : Fin 128, snorm s rw c * w1 k c) + b1 k

/-- Hidden unit `k`: `x · logistic x`. -/
def hid (s rw : Fin 128 → EReal) (w1 : Fin 128 → Fin 128 → EReal) (b1 : Fin 128 → EReal) (k : Fin 128) : EReal :=
  pre1 s rw w1 b1 k * Ideal.logistic (pre1 s rw w1 b1 k)

/-- Output `d` of the node network: the second layer's row `d` against the hidden units, plus its bias. -/
def phi (s rw : Fin 128 → EReal) (w1 : Fin 128 → Fin 128 → EReal) (b1 : Fin 128 → EReal)
    (w2 : Fin 384 → Fin 128 → EReal) (b2 : Fin 384 → EReal) (d : Fin 384) : EReal :=
  (∑ k : Fin 128, hid s rw w1 b1 k * w2 d k) + b2 d

/-! ## The edge scale is a nonnegative real -/

theorem κ_eq : κ = ((1 / 16 : ℝ) : EReal) := by
  show Ideal.ofBits .f32 0x3D800000#32 = _
  simp [Ideal.ofBits, Ideal.ieee, -EReal.coe_mul]
  norm_num

theorem κ_nonneg : (0 : EReal) ≤ κ := by rw [κ_eq]; exact_mod_cast (by norm_num : (0 : ℝ) ≤ 1 / 16)
theorem κ_ne_top : κ ≠ ⊤ := by rw [κ_eq]; exact EReal.coe_ne_top _

/-- A nonnegative real factor distributes over a sum of two extended reals. -/
theorem add_mul_κ (a b : EReal) : (a + b) * κ = a * κ + b * κ :=
  EReal.right_distrib_of_nonneg_of_ne_top κ_nonneg κ_ne_top a b

/-- … and over any finite sum. -/
theorem scale_sum {ι : Type} (S : Finset ι) (f : ι → EReal) : (∑ j ∈ S, f j) * κ = ∑ j ∈ S, f j * κ := by
  classical
  induction S using Finset.induction_on with
  | empty => simp
  | insert a S ha ih => rw [Finset.sum_insert ha, Finset.sum_insert ha, add_mul_κ, ih]

/-! ## One edge's terms, scaled before or after -/

/-- The scalar message's term: scaled at the edge. -/
def msK (p r : EReal) : EReal := p * r * κ
/-- The vector message's term, scaled at the edge: the source's vector entry against the second third, the edge's
    direction against the last third. -/
def gateK (vg p1 r1 ev p2 r2 : EReal) : EReal := vg * (p1 * r1 * κ) + ev * (p2 * r2 * κ)
/-- The same two terms unscaled. -/
def msR (p r : EReal) : EReal := p * r
def gateR (vg p1 r1 ev p2 r2 : EReal) : EReal := vg * (p1 * r1) + ev * (p2 * r2)

theorem msK_eq (p r : EReal) : msK p r = msR p r * κ := rfl

theorem gateK_eq (vg p1 r1 ev p2 r2 : EReal) : gateK vg p1 r1 ev p2 r2 = gateR vg p1 r1 ev p2 r2 * κ := by
  unfold gateK gateR
  rw [add_mul_κ, mul_assoc vg, mul_assoc ev]

end Cert.Spec

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.NodePay.lean ====
/-
  The first kernel's arithmetic at one entry: the stored value at row `r`, column `d` of a block is the node
  network's output `phi` of row `r` of the loaded feature block (the normalisation, the first layer as a sum over
  the 128 features, `x · logistic x`, the second layer as a sum over the 128 hidden units), the weights read
  transposed as the kernel holds them.
-/
import proofs.«406259_j12489764897067_3_alg».proof.Proof.Gen.KernelIdeal.Skeleton
import proofs.«406259_j12489764897067_3_alg».proof.Proof.Spec
import proofs.«406259_j12489764897067_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KV

open Cert.KernelIdeal Cert.KernelIdeal.Gen
open Idealize.ShloMosaic Idealize.ShloMosaic.ValueIdx

namespace NodePay

/-! ## The column forms of the layout operations, read at coordinates -/

section Layout
variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the second axis of an `[a, b]` array of extended reals, read at row `r`: the sum over the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c; refine Fin.ext ?_
  match c with
  | ⟨0, _⟩ => rfl
  | ⟨1, _⟩ => rfl

section Layout
variable {α : Type}

/-- A row `[b]` viewed `[1, b]` and broadcast to `[a, b]` reads, at `(p, c)`, the row's entry `c`. -/
theorem rowBroadcast_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ x h1) h2 (ix2 p c) = x (ix1 c) :=
  (broadcastTo_1b_ab_apply _ h2 p c).trans (shapeCast_a_1a_apply x h1 0 c)

end Layout

/-! ## The kernel's intermediate blocks, named -/

/-- The loaded feature block (through its identity cast). -/
def kX (x0 : Vec Ideal S2000x128 .f32) : FVec Ideal S2000x128 .f32 :=
  shapeCast S2000x128 x0 shapeCasts_S2000x128_S2000x128

/-- The row sums of squares. -/
def kSum (x0 : Vec Ideal S2000x128 .f32) : FVec Ideal S2000 .f32 :=
  multiReduction .add [1] S2000 (mulf (kX x0) (kX x0)) 0x00000000#32 reduces_S2000x128_S2000 (.inl rfl) rfl

/-- The column of `(mean of squares + ε)^(-1/2)`. -/
def kInv (x0 : Vec Ideal S2000x128 .f32) : FVec Ideal S2000x1 .f32 :=
  rsqrt (addf (divf (shapeCast S2000x1 (kSum x0) shapeCasts_S2000_S2000x1) (broadcast S2000x1 (Scalar.ofBits .f32 0x43000000#32)))
    (broadcast S2000x1 (Scalar.ofBits .f32 0x34000000#32)))

/-- The normalised block. -/
def kNorm (x0 : Vec Ideal S2000x128 .f32) (xrw : Vec Ideal S128 .f32) : FVec Ideal S2000x128 .f32 :=
  mulf (mulf (kX x0) (broadcastTo S2000x128 (kInv x0) broadcasts_S2000x1_S2000x128))
    (broadcastTo S2000x128 (shapeCast S1x128 xrw shapeCasts_S128_S1x128) broadcasts_S1x128_S2000x128)

/-- The first layer before its activation. -/
def kPre (x0 : Vec Ideal S2000x128 .f32) (xrw : Vec Ideal S128 .f32) (xw1 : Vec Ideal S128x128 .f32) (xb1 : Vec Ideal S128 .f32) :
    FVec Ideal S2000x128 .f32 :=
  addf (matmul dot_S2000x128_S128x128_S2000x128_1_0_0_1_n_n none (truncf .bf16 (kNorm x0 xrw) bitsLt_bf16_f32)
      (truncf .bf16 (shapeCast S128x128 xw1 shapeCasts_S128x128_S128x128) bitsLt_bf16_f32) (constant S2000x128 .f32 0x00000000#32))
    (broadcastTo S2000x128 (shapeCast S1x128 xb1 shapeCasts_S128_S1x128) broadcasts_S1x128_S2000x128)

/-- The hidden block. -/
def kHid (x0 : Vec Ideal S2000x128 .f32) (xrw : Vec Ideal S128 .f32) (xw1 : Vec Ideal S128x128 .f32) (xb1 : Vec Ideal S128 .f32) :
    FVec Ideal S2000x128 .f32 :=
  mulf (kPre x0 xrw xw1 xb1) (logistic (kPre x0 xrw xw1 xb1))

/-- The stored block is the second layer over the hidden block: the payload's text with the blocks above named. -/
theorem k0_pay1_eq (x0 : Vec Ideal S2000x128 .f32) (xrw : Vec Ideal S128 .f32) (xw1 : Vec Ideal S128x128 .f32)
    (xb1 : Vec Ideal S128 .f32) (xw2 : Vec Ideal S128x384 .f32) (xb2 : Vec Ideal S384 .f32) :
    k0_pay1 (F := Ideal) x0 xrw xw1 xb1 xw2 xb2
      = addf (matmul dot_S2000x128_S128x384_S2000x384_1_0_0_1_n_n none (truncf .bf16 (kHid x0 xrw xw1 xb1) bitsLt_bf16_f32)
            (truncf .bf16 (shapeCast S128x384 xw2 shapeCasts_S128x384_S128x384) bitsLt_bf16_f32) (constant S2000x384 .f32 0x00000000#32))
          (broadcastTo S2000x384 (shapeCast S1x384 xb2 shapeCasts_S384_S1x384) broadcasts_S1x384_S2000x384) := rfl

/-! ## Each block at an entry -/

theorem kX_eq (x0 : Vec Ideal S2000x128 .f32) : kX x0 = x0 := shapeCast_self _ _

theorem kSum_apply (x0 : Vec Ideal S2000x128 .f32) (r : Fin 2000) :
    kSum x0 (ix1 r) = ∑ c : Fin 128, (x0 (ix2 r c) : EReal) * (x0 (ix2 r c) : EReal) := by
  refine (rowSum_apply (mulf (kX x0) (kX x0)) reduces_S2000x128_S2000 (.inl rfl) rfl r).trans ?_
  refine Finset.sum_congr rfl fun c _ => ?_
  rw [kX_eq]; rfl

theorem kInv_apply (x0 : Vec Ideal S2000x128 .f32) (r : Fin 2000) (u : Fin 1) :
    kInv x0 (ix2 r u) = Cert.Spec.rinv (fun c => x0 (ix2 r c)) := by
  have hs : shapeCast S2000x1 (kSum x0) shapeCasts_S2000_S2000x1 (ix2 r u)
      = ∑ c : Fin 128, (x0 (ix2 r c) : EReal) * (x0 (ix2 r c) : EReal) :=
    (shapeCast_a_a1_apply _ _ r u).trans (kSum_apply x0 r)
  exact congrArg (fun t : EReal => Ideal.rsqrt (Ideal.div t Cert.Spec.c128 + Cert.Spec.cEps)) hs

theorem kNorm_apply (x0 : Vec Ideal S2000x128 .f32) (xrw : Vec Ideal S128 .f32) (r : Fin 2000) (c : Fin 128) :
    kNorm x0 xrw (ix2 r c) = Cert.Spec.snorm (fun c => x0 (ix2 r c)) (fun c => xrw (ix1 c)) c := by
  have h1 : kX x0 (ix2 r c) = x0 (ix2 r c) := congrFun (kX_eq x0) _
  have h2 : broadcastTo S2000x128 (kInv x0) broadcasts_S2000x1_S2000x128 (ix2 r c) = Cert.Spec.rinv (fun c => x0 (ix2 r c)) :=
    (broadcastTo_a1_ab_apply _ _ r c).trans (kInv_apply x0 r 0)
  have h3 : broadcastTo S2000x128 (shapeCast S1x128 xrw shapeCasts_S128_S1x128) broadcasts_S1x128_S2000x128 (ix2 r c) = xrw (ix1 c) :=
    rowBroadcast_apply xrw _ _ r c
  exact congrArg₂ (fun a b : EReal => a * b) (congrArg₂ (fun a b : EReal => a * b) h1 h2) h3

theorem kPre_apply (x0 : Vec Ideal S2000x128 .f32) (xrw : Vec Ideal S128 .f32) (xw1 : Vec Ideal S128x128 .f32)
    (xb1 : Vec Ideal S128 .f32) (r : Fin 2000) (k : Fin 128) :
    kPre x0 xrw xw1 xb1 (ix2 r k)
      = Cert.Spec.pre1 (fun c => x0 (ix2 r c)) (fun c => xrw (ix1 c)) (fun k c => xw1 (ix2 c k)) (fun k => xb1 (ix1 k)) k := by
  have hm : matmul dot_S2000x128_S128x128_S2000x128_1_0_0_1_n_n none (truncf .bf16 (kNorm x0 xrw) bitsLt_bf16_f32)
      (truncf .bf16 (shapeCast S128x128 xw1 shapeCasts_S128x128_S128x128) bitsLt_bf16_f32) (constant S2000x128 .f32 0x00000000#32) (ix2 r k)
      = ∑ c : Fin 128, Cert.Spec.snorm (fun c => x0 (ix2 r c)) (fun c => xrw (ix1 c)) c * (xw1 (ix2 c k) : EReal) := by
    refine (Cert.Lib.PlainDot.matmul_plain_zero_ix2 2000 128 128 none _ _ r k).trans ?_
    refine Finset.sum_congr rfl fun c _ => ?_
    exact congrArg₂ (fun a b : EReal => a * b) (kNorm_apply x0 xrw r c) (congrFun (shapeCast_self xw1 _) (ix2 c k))
  exact congrArg₂ (fun a b : EReal => a + b) hm (rowBroadcast_apply xb1 _ _ r k)

theorem kHid_apply (x0 : Vec Ideal S2000x128 .f32) (xrw : Vec Ideal S128 .f32) (xw1 : Vec Ideal S128x128 .f32)
    (xb1 : Vec Ideal S128 .f32) (r : Fin 2000) (k : Fin 128) :
    kHid x0 xrw xw1 xb1 (ix2 r k)
      = Cert.Spec.hid (fun c => x0 (ix2 r c)) (fun c => xrw (ix1 c)) (fun k c => xw1 (ix2 c k)) (fun k => xb1 (ix1 k)) k :=
  congrArg (fun t : EReal => t * Ideal.logistic t) (kPre_apply x0 xrw xw1 xb1 r k)

end NodePay

open NodePay

/-- Entry `(r, d)` of the first kernel's stored block. -/
theorem pay0_apply (x0 : Vec Ideal S2000x128 .f32) (xrw : Vec Ideal S128 .f32) (xw1 : Vec Ideal S128x128 .f32)
    (xb1 : Vec Ideal S128 .f32) (xw2 : Vec Ideal S128x384 .f32) (xb2 : Vec Ideal S384 .f32) (r : Fin 2000) (d : Fin 384) :
    k0_pay1 (F := Ideal) x0 xrw xw1 xb1 xw2 xb2 (ix2 r d)
      = Cert.Spec.phi (fun c => x0 (ix2 r c)) (fun c => xrw (ix1 c)) (fun k c => xw1 (ix2 c k)) (fun k => xb1 (ix1 k))
          (fun d k => xw2 (ix2 k d)) (fun d => xb2 (ix1 d)) d := by
  refine (congrFun (k0_pay1_eq x0 xrw xw1 xb1 xw2 xb2) (ix2 r d)).trans ?_
  have hm : matmul dot_S2000x128_S128x384_S2000x384_1_0_0_1_n_n none (truncf .bf16 (kHid x0 xrw xw1 xb1) bitsLt_bf16_f32)
      (truncf .bf16 (shapeCast S128x384 xw2 shapeCasts_S128x384_S128x384) bitsLt_bf16_f32) (constant S2000x384 .f32 0x00000000#32) (ix2 r d)
      = ∑ k : Fin 128, Cert.Spec.hid (fun c => x0 (ix2 r c)) (fun c => xrw (ix1 c)) (fun k c => xw1 (ix2 c k)) (fun k => xb1 (ix1 k)) k
          * (xw2 (ix2 k d) : EReal) := by
    refine (Cert.Lib.PlainDot.matmul_plain_zero_ix2 2000 128 384 none _ _ r d).trans ?_
    refine Finset.sum_congr rfl fun k _ => ?_
    exact congrArg₂ (fun a b : EReal => a * b) (kHid_apply x0 xrw xw1 xb1 r k) (congrFun (shapeCast_self xw2 _) (ix2 k d))
  exact congrArg₂ (fun a b : EReal => a + b) hm (rowBroadcast_apply xb2 _ _ r d)

end Cert.KernelIdeal.KV

end
-- ==== Proof.NodeArr.lean ====
/-
  The first region's output array after the run: entry `(n, d)` is the node network's output `phi` of node `n`'s
  feature row. Each grid point writes back the 2000 rows of its block, the blocks tile the 10000 rows, and a block's
  row is the network of the same row of the feature block.
-/
import proofs.«406259_j12489764897067_3_alg».proof.Proof.Names
import proofs.«406259_j12489764897067_3_alg».proof.Proof.HostEntry
import proofs.«406259_j12489764897067_3_alg».proof.Proof.NodePay
import Idealize.ShloMosaic.Lib.Pipeline.Value

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

namespace NodeNet

/-! ## The zero offsets, however spelt -/

theorem zero2 : (![0, 0] : Fin 2 → Nat) = fun _ => 0 := funext fun a => by
  match a with
  | ⟨0, _⟩ => rfl
  | ⟨1, _⟩ => rfl
theorem zero1 : (![0] : Fin 1 → Nat) = fun _ => 0 := funext fun a => by
  match a with
  | ⟨0, _⟩ => rfl

/-! ## The node network of every row: the array the region leaves, as one function of the arrays it finds -/

/-- Entry `(n, d)`: `phi` of row `n` of the features, the weight matrices read transposed. -/
def phiOf (s2 : FVec Ideal S10000x128 .f32) (rw : FVec Ideal S128 .f32) (w1t : FVec Ideal S128x128 .f32)
    (b1 : FVec Ideal S128 .f32) (w2t : FVec Ideal S128x384 .f32) (b2 : FVec Ideal S384 .f32) : FVec Ideal S10000x384 .f32 :=
  fun y => Cert.Spec.phi (fun k => s2 (ix2 (n0 := 10000) (y 0) k)) (fun k => rw (ix1 k)) (fun k k' => w1t (ix2 k' k))
    (fun k => b1 (ix1 k)) (fun d k => w2t (ix2 k d)) (fun d => b2 (ix1 d)) (y 1)

/-- A stored block's entry is the network's output at the array entry `i` whenever the block's feature row is the
    array's row of `i`, the column is `i`'s, and the five small operands are the whole arrays. -/
theorem pay_eq_phiOf (s2 : FVec Ideal S10000x128 .f32) (rw : FVec Ideal S128 .f32) (w1t : FVec Ideal S128x128 .f32)
    (b1 : FVec Ideal S128 .f32) (w2t : FVec Ideal S128x384 .f32) (b2 : FVec Ideal S384 .f32)
    (x0 : Vec Ideal S2000x128 .f32) (x5 : Vec Ideal S128 .f32) (x1 : Vec Ideal S128x128 .f32) (x2 : Vec Ideal S128 .f32)
    (x3 : Vec Ideal S128x384 .f32) (x4 : Vec Ideal S384 .f32)
    (h5 : x5 = rw) (h1 : x1 = w1t) (h2 : x2 = b1) (h3 : x3 = w2t) (h4 : x4 = b2)
    (jj : S2000x384.Idx) (i : S10000x384.Idx)
    (hrow : ∀ k : Fin 128, x0 (ix2 (n0 := 2000) (jj 0) k) = s2 (ix2 (n0 := 10000) (i 0) k))
    (hd : (i 1).val = (jj 1).val) :
    k0_pay1 (F := Ideal) x0 x5 x1 x2 x3 x4 jj = phiOf s2 rw w1t b1 w2t b2 i := by
  subst h5 h1 h2 h3 h4
  obtain ⟨r, d', rfl⟩ : ∃ (r : Fin 2000) (d' : Fin 384), jj = ix2 r d' := ⟨jj 0, jj 1, eq_ix2 jj⟩
  rw [pay0_apply]
  unfold phiOf
  have hd' : (i 1 : Fin 384) = d' := Fin.ext hd
  exact (congrArg (fun f => Cert.Spec.phi f _ _ _ _ _ d') (funext hrow)).trans
    (congrArg (Cert.Spec.phi _ _ _ _ _ _) hd'.symm)

/-! ## The index maps, decided once over the grid -/

/-- The feature window and the output window sit at block `t` of the rows; the five small windows are whole arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 2) = t.val ∧ win0_6.index t (1 : Fin 2) = 0 :=
  (by decide +kernel : ∀ t : Fin grid0.N, _)

/-- What point `t` writes back is block `t` of the node network of the arrays the region finds: the five small operands
    are read whole, and row `r` of the feature block is row `2000 t + r` of the features. -/
theorem flushed_eq (c : Dev nD) (t : Fin cfg0.N) :
    (dat0 (V1 m ρ) c).flushed 6 t = ((cfg0.win 6).blk t).view.read (Elt Ideal)
      (phiOf (s2Arr m ρ c) (rwArr m ρ c) (w1tArr m ρ c) (b1Arr m ρ c) (w2tArr m ρ c) (b2Arr m ρ c)) := by
  show (cfg0.win 6).cut (grid0.coords t) ((dat0 (V1 m ρ) c).after 6 t) = _
  rw [after0_6]
  unfold out0_6
  rw [View.canon_unit_zero zero2]
  simp only [View.ld_unit_zero (S := S2000x128) zero2, View.ld_unit_zero (S := S128x128) zero2, View.ld_unit_zero (S := S128x384) zero2,
    View.ld_unit_zero (S := S128) zero1, View.ld_unit_zero (S := S384) zero1]
  obtain ⟨e00, e01, e10, e11, e20, e30, e31, e40, e50, e60, e61⟩ := idx_facts t
  have h1 : iblk0 (V1 m ρ) c 1 t = w1tArr m ρ c := by
    funext y
    show V1 m ρ c main_v4 (((cfg0.win 1).blk t).view.emb y) = V1 m ρ c main_v4 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have h2 : iblk0 (V1 m ρ) c 2 t = b1Arr m ρ c := by
    funext y
    show V1 m ρ c main_arg6 (((cfg0.win 2).blk t).view.emb y) = V1 m ρ c main_arg6 y
    refine congrArg _ (funext fun a => Fin.ext ?_)
    match a with
    | ⟨0, _⟩ => show win0_2.index t (0 : Fin 1) * 128 + 1 * (y 0).val = (y 0).val; omega
  have h3 : iblk0 (V1 m ρ) c 3 t = w2tArr m ρ c := by
    funext y
    show V1 m ρ c main_v5 (((cfg0.win 3).blk t).view.emb y) = V1 m ρ c main_v5 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 384 + 1 * (y 1).val = (y 1).val; omega
  have h4 : iblk0 (V1 m ρ) c 4 t = b2Arr m ρ c := by
    funext y
    show V1 m ρ c main_arg8 (((cfg0.win 4).blk t).view.emb y) = V1 m ρ c main_arg8 y
    refine congrArg _ (funext fun a => Fin.ext ?_)
    match a with
    | ⟨0, _⟩ => show win0_4.index t (0 : Fin 1) * 384 + 1 * (y 0).val = (y 0).val; omega
  have h5 : iblk0 (V1 m ρ) c 5 t = rwArr m ρ c := by
    funext y
    show V1 m ρ c main_arg9 (((cfg0.win 5).blk t).view.emb y) = V1 m ρ c main_arg9 y
    refine congrArg _ (funext fun a => Fin.ext ?_)
    match a with
    | ⟨0, _⟩ => show win0_5.index t (0 : Fin 1) * 128 + 1 * (y 0).val = (y 0).val; omega
  funext j
  refine pay_eq_phiOf _ _ _ _ _ _ _ _ _ _ _ _ h5 h1 h2 h3 h4 ((win0 6).xinj (grid0.coords t) j) (((cfg0.win 6).blk t).view.emb j) (fun k => ?_) ?_
  · show V1 m ρ c main_v6 (((cfg0.win 0).blk t).view.emb (ix2 ((win0 6).xinj (grid0.coords t) j 0) k))
      = V1 m ρ c main_v6 (ix2 (((cfg0.win 6).blk t).view.emb j 0) k)
    refine congrArg _ (funext fun a => Fin.ext ?_)
    match a with
    | ⟨0, _⟩ =>
      show win0_0.index t (0 : Fin 2) * 2000 + 1 * (j 0).val = win0_6.index t (0 : Fin 2) * 2000 + 1 * (j 0).val
      omega
    | ⟨1, _⟩ => show win0_0.index t (1 : Fin 2) * 128 + 1 * k.val = k.val; omega
  · show win0_6.index t (1 : Fin 2) * 384 + 1 * (j 1).val = (j 1).val
    omega

/-! ## The blocks tile the rows -/

/-- An entry of the array is in point `t`'s block iff each coordinate is in the block's range on its axis. -/
theorem mem_blk (t : Fin cfg0.N) (i : S10000x384.Idx) :
    i ∈ ((cfg0.win 6).blk t).view.set ↔ ∀ a : Fin 2, win0_6.index t a * S2000x384.size a ≤ (i a).val
      ∧ (i a).val < win0_6.index t a * S2000x384.size a + S2000x384.size a := by
  show i ∈ ((View.whole main_v7).slice (win0_6.rect t)).set ↔ _
  rw [View.set_slice_whole, Rect.mem_set_unit]
  exact Iff.rfl

/-- Row `n` is in the block of point `n / 2000`, and every point writes its block back. -/
theorem cover (i : S10000x384.Idx) :
    ∃ t : Fin cfg0.N, (cfg0.win 6).flush t = true ∧ i ∈ ((cfg0.win 6).blk t).view.set := by
  have hi0 : (i 0).val < 10000 := (i 0).isLt
  have hi1 : (i 1).val < 384 := (i 1).isLt
  have hN : grid0.N = 5 := N_0
  obtain ⟨t, ht⟩ : ∃ t : Fin cfg0.N, t.val = (i 0).val / 2000 :=
    ⟨⟨(i 0).val / 2000, by show (i 0).val / 2000 < grid0.N; rw [hN]; omega⟩, rfl⟩
  obtain ⟨-, -, -, -, -, -, -, -, -, e60, e61⟩ := idx_facts t
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 384 ≤ (i 1).val ∧ (i 1).val < win0_6.index t (1 : Fin 2) * 384 + 384
    omega

/-- The array after the run is the node network of every row of the features the region found. -/
theorem phiArr_eq (c : Dev nD) :
    phiArr m ρ c = phiOf (s2Arr m ρ c) (rwArr m ρ c) (w1tArr m ρ c) (b1Arr m ρ c) (w2tArr m ρ c) (b2Arr m ρ c) :=
  (dat0 (V1 m ρ) c).arrAt_eq_of_cover 6 _ (fun t _ => flushed_eq m ρ c t) cover

/-! ## The arrays the region found, read at an entry of the arguments -/

/-- The features with the unit axis dropped: row `n`, entry `k`. -/
theorem dropUnit_apply {α : Type} (x : S10000x1x128.Idx → α) (n : Fin 10000) (k : Fin 128) :
    shapeCast S10000x128 x shapeCasts_S10000x1x128_S10000x128 (ix2 n k) = x (ix3 n (0 : Fin 1) k) :=
  shapeCast_apply x _ (ix2 n k) (ix3 n (0 : Fin 1) k) (by
    rw [Shape.rowMajor_val_three, Shape.rowMajor_val_two]
    show (n.val * 1 + 0) * 128 + k.val = n.val * 128 + k.val
    omega)

/-- The first layer's weights transposed: entry `(k', k)` is the matrix's `(k, k')`. -/
theorem w1t_apply {α : Type} (x : S128x128.Idx → α) (k k' : Fin 128) :
    transpose S128x128 [1, 0] x transposes_S128x128_S128x128_1_0 (ix2 k' k) = x (ix2 k k') :=
  transpose_apply [1, 0] x _ (ix2 k' k) (ix2 k k') fun b => by
    match b with
    | ⟨0, _⟩ => rfl
    | ⟨1, _⟩ => rfl

/-- The second layer's weights transposed: entry `(k, d)` is the matrix's `(d, k)`. -/
theorem w2t_apply {α : Type} (x : S384x128.Idx → α) (d : Fin 384) (k : Fin 128) :
    transpose S128x384 [1, 0] x transposes_S384x128_S128x384_1_0 (ix2 k d) = x (ix2 d k) :=
  transpose_apply [1, 0] x _ (ix2 k d) (ix2 d k) fun b => by
    match b with
    | ⟨0, _⟩ => rfl
    | ⟨1, _⟩ => rfl

end NodeNet

open NodeNet

/-- Entry `(n, d)` of the node network's output array. -/
theorem phiArr_apply (c : Dev nD) (n : Fin 10000) (d : Fin 384) :
    phiArr m ρ c (ix2 n d)
      = Cert.Spec.phi (fun k => argS m c (ix3 n (0 : Fin 1) k)) (fun k => argRw m c (ix1 k)) (fun k k' => argW1 m c (ix2 k k'))
          (fun k => argB1 m c (ix1 k)) (fun d k => argW2 m c (ix2 d k)) (fun d => argB2 m c (ix1 d)) d := by
  refine (congrFun (phiArr_eq m ρ c) (ix2 n d)).trans ?_
  show Cert.Spec.phi (fun k => s2Arr m ρ c (ix2 n k)) (fun k => rwArr m ρ c (ix1 k)) (fun k k' => w1tArr m ρ c (ix2 k' k))
      (fun k => b1Arr m ρ c (ix1 k)) (fun d k => w2tArr m ρ c (ix2 k d)) (fun d => b2Arr m ρ c (ix1 d)) d = _
  rw [s2Arr_eq, rwArr_eq, w1tArr_eq, b1Arr_eq, w2tArr_eq, b2Arr_eq]
  simp only [dropUnit_apply]
  have hw1 : (fun k k' : Fin 128 => transpose S128x128 [1, 0] (argW1 m c) transposes_S128x128_S128x128_1_0 (ix2 k' k))
      = fun k k' => argW1 m c (ix2 k k') := funext fun k => funext fun k' => w1t_apply _ k k'
  have hw2 : (fun (d : Fin 384) (k : Fin 128) => transpose S128x384 [1, 0] (argW2 m c) transposes_S384x128_S128x384_1_0 (ix2 k d))
      = fun d k => argW2 m c (ix2 d k) := funext fun d => funext fun k => w2t_apply _ d k
  rw [hw1, hw2]

end Cert.KernelIdeal.KV

end
-- ==== Proof.EdgePay.lean ====
/-
  The second kernel's arithmetic at one entry: the scalar term is the first third of `phi · rbf` scaled, and each of
  the three vector terms is the gathered vector entry against the second third plus the edge's direction component
  against the last third, both thirds scaled.
-/
import proofs.«406259_j12489764897067_3_alg».proof.Proof.Gen.KernelIdeal.Skeleton
import proofs.«406259_j12489764897067_3_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.KV

open Cert.KernelIdeal Cert.KernelIdeal.Gen
open Idealize.ShloMosaic Idealize.ShloMosaic.ValueIdx

/-! ## The scaled product block and its three thirds -/

/-- Entry `(r, c)` of the scaled product: `x0 · x1 · κ`. The two casts to the same shape are the identity, the
    products are the extended reals', and the broadcast scalar reads `κ` everywhere. -/
theorem pay2_apply (x0 x1 : Vec Ideal S2000x384 .f32) (r : Fin 2000) (c : Fin 384) :
    k1_pay2 (F := Ideal) x0 x1 (ix2 r c) = Cert.Spec.msK (x0 (ix2 r c)) (x1 (ix2 r c)) := by
  unfold k1_pay2
  rw [shapeCast_self, shapeCast_self]
  rfl

/-- A 128-column slice of the scaled product at column offset `o` reads the product at column `o + q`. -/
theorem slice_apply (x0 x1 : Vec Ideal S2000x384 .f32) (o : Nat) (h : S2000x384.Slices ![0, o] S2000x128)
    (r : Fin 2000) (q : Fin 128) (ho : o + q.val < 384) :
    extractStridedSlice S2000x128 ![0, o] (k1_pay2 (F := Ideal) x0 x1) h (ix2 r q)
      = Cert.Spec.msK (x0 (ix2 r ⟨o + q.val, ho⟩)) (x1 (ix2 r ⟨o + q.val, ho⟩)) := by
  refine (extractStridedSlice_apply _ _ h (ix2 r q) (ix2 r ⟨o + q.val, ho⟩) ?_).trans (pay2_apply x0 x1 r _)
  intro a
  match a with
  | ⟨0, _⟩ => show r.val = 0 + r.val; omega
  | ⟨1, _⟩ => rfl

/-- The middle third at `(r, q)`. -/
theorem pay4_apply (x0 x1 : Vec Ideal S2000x384 .f32) (r : Fin 2000) (q : Fin 128) :
    k1_pay4 (F := Ideal) x0 x1 (ix2 r q)
      = Cert.Spec.msK (x0 (ix2 r ⟨128 + q.val, by omega⟩)) (x1 (ix2 r ⟨128 + q.val, by omega⟩)) :=
  slice_apply x0 x1 128 Facts₀.slices_S2000x384_o0_128_S2000x128 r q (by omega)

/-- The last third at `(r, q)`. -/
theorem pay5_apply (x0 x1 : Vec Ideal S2000x384 .f32) (r : Fin 2000) (q : Fin 128) :
    k1_pay5 (F := Ideal) x0 x1 (ix2 r q)
      = Cert.Spec.msK (x0 (ix2 r ⟨256 + q.val, by omega⟩)) (x1 (ix2 r ⟨256 + q.val, by omega⟩)) :=
  slice_apply x0 x1 256 Facts₀.slices_S2000x384_o0_256_S2000x128 r q (by omega)

/-- A column broadcast along the rows reads the column's entry of the row. -/
theorem bcol_apply (ev : Vec Ideal S2000x1 .f32) (h : S2000x1.Broadcasts S2000x128) (r : Fin 2000) (q : Fin 128) :
    broadcastTo S2000x128 ev h (ix2 r q) = ev (ix2 r (0 : Fin 1)) := by
  refine broadcastTo_apply ev h (ix2 r q) (ix2 r (0 : Fin 1)) ?_
  intro a
  match a with
  | ⟨0, _⟩ => rfl
  | ⟨1, _⟩ => rfl

/-- Entry `(r, q)` of the scalar term's block. -/
theorem pay_ms_apply (x0 x1 : Vec Ideal S2000x384 .f32) (r : Fin 2000) (q : Fin 128) :
    k1_pay3 (F := Ideal) x0 x1 (ix2 r q)
      = Cert.Spec.msK (x0 (ix2 r ⟨q.val, by omega⟩)) (x1 (ix2 r ⟨q.val, by omega⟩)) := by
  have h := slice_apply x0 x1 0 Facts₀.slices_S2000x384_o0_0_S2000x128 r q (by omega)
  simp only [Nat.zero_add] at h
  exact h

/-- Entry `(r, q)` of the vector term's first 128 columns (direction component 0). -/
theorem pay_gate0_apply (x0 x1 : Vec Ideal S2000x384 .f32) (ev : Vec Ideal S2000x1 .f32) (vg : Vec Ideal S2000x128 .f32)
    (r : Fin 2000) (q : Fin 128) :
    k1_pay6 (F := Ideal) x0 x1 ev vg (ix2 r q)
      = Cert.Spec.gateK (vg (ix2 r q)) (x0 (ix2 r ⟨128 + q.val, by omega⟩)) (x1 (ix2 r ⟨128 + q.val, by omega⟩))
          (ev (ix2 r (0 : Fin 1))) (x0 (ix2 r ⟨256 + q.val, by omega⟩)) (x1 (ix2 r ⟨256 + q.val, by omega⟩)) := by
  unfold k1_pay6
  rw [shapeCast_self]
  show vg (ix2 r q) * k1_pay4 (F := Ideal) x0 x1 (ix2 r q)
      + broadcastTo S2000x128 ev _ (ix2 r q) * k1_pay5 (F := Ideal) x0 x1 (ix2 r q) = _
  rw [pay4_apply, pay5_apply, bcol_apply]
  rfl

/-- The same for the middle 128 columns (direction component 1). -/
theorem pay_gate1_apply (x0 x1 : Vec Ideal S2000x384 .f32) (ev : Vec Ideal S2000x1 .f32) (vg : Vec Ideal S2000x128 .f32)
    (r : Fin 2000) (q : Fin 128) :
    k1_pay7 (F := Ideal) x0 x1 ev vg (ix2 r q)
      = Cert.Spec.gateK (vg (ix2 r q)) (x0 (ix2 r ⟨128 + q.val, by omega⟩)) (x1 (ix2 r ⟨128 + q.val, by omega⟩))
          (ev (ix2 r (0 : Fin 1))) (x0 (ix2 r ⟨256 + q.val, by omega⟩)) (x1 (ix2 r ⟨256 + q.val, by omega⟩)) := by
  unfold k1_pay7
  rw [shapeCast_self]
  show vg (ix2 r q) * k1_pay4 (F := Ideal) x0 x1 (ix2 r q)
      + broadcastTo S2000x128 ev _ (ix2 r q) * k1_pay5 (F := Ideal) x0 x1 (ix2 r q) = _
  rw [pay4_apply, pay5_apply, bcol_apply]
  rfl

/-- The same for the last 128 columns (direction component 2): the sum of the two products the kernel forms apart. -/
theorem pay_gate2_apply (x0 x1 : Vec Ideal S2000x384 .f32) (ev : Vec Ideal S2000x1 .f32) (vg : Vec Ideal S2000x128 .f32)
    (r : Fin 2000) (q : Fin 128) :
    k1_pay1 (F := Ideal) (k1_pay8 x0 x1 vg) (k1_pay9 x0 x1 ev) (ix2 r q)
      = Cert.Spec.gateK (vg (ix2 r q)) (x0 (ix2 r ⟨128 + q.val, by omega⟩)) (x1 (ix2 r ⟨128 + q.val, by omega⟩))
          (ev (ix2 r (0 : Fin 1))) (x0 (ix2 r ⟨256 + q.val, by omega⟩)) (x1 (ix2 r ⟨256 + q.val, by omega⟩)) := by
  unfold k1_pay1 k1_pay8 k1_pay9
  rw [shapeCast_self]
  show vg (ix2 r q) * k1_pay4 (F := Ideal) x0 x1 (ix2 r q)
      + broadcastTo S2000x128 ev _ (ix2 r q) * k1_pay5 (F := Ideal) x0 x1 (ix2 r q) = _
  rw [pay4_apply, pay5_apply, bcol_apply]
  rfl

end Cert.KernelIdeal.KV

end
-- ==== Proof.EdgeArr.lean ====
/-
  The second region's two output arrays after the run, entry by entry, from the arrays the region finds: the scalar
  edge term of edge `e`, column `q`, and the vector edge term of edge `e`, component `k`, column `q` (stored at
  column `128 k + q`). Each grid point writes back the 2000 edges of its block and the blocks tile the 160000 edges.
-/
import proofs.«406259_j12489764897067_3_alg».proof.Proof.Names
import proofs.«406259_j12489764897067_3_alg».proof.Proof.EdgePay
import Idealize.ShloMosaic.Lib.Pipeline.Value

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## Block by block: what each grid point writes back, and the blocks' cover -/

namespace EdgeTerms

theorem zeroOff : (![0, 0] : Fin 2 → Nat) = fun _ => 0 := funext fun a => by fin_cases a <;> rfl

/-- The grid has 80 points. -/
theorem pt_lt (t : Fin cfg1.N) : t.val < 80 := lt_of_lt_of_eq t.isLt N_1

/-- The printed index maps, decided over the grid: every window's block at point `t` is block `t` along the edges
    and block 0 along the columns. -/
theorem blockIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `r` of block `t` is edge `2000 t + r`. -/
def edgeOf (t : Fin cfg1.N) (r : Fin 2000) : Fin 160000 := ⟨2000 * t.val + r.val, by have := pt_lt t; omega⟩

theorem blk0_emb (t : Fin cfg1.N) (r : Fin 2000) (col : Fin 384) :
    ((cfg1.win 0).blk t).view.emb (ix2 r col) = ix2 (edgeOf t r) col := by
  obtain ⟨e0, e1, -⟩ := blockIdx t
  funext a; apply Fin.ext
  match a with
  | ⟨0, _⟩ => show win1_0.index t (0 : Fin 2) * 2000 + 1 * r.val = 2000 * t.val + r.val; omega
  | ⟨1, _⟩ => show win1_0.index t (1 : Fin 2) * 384 + 1 * col.val = col.val; omega

theorem blk1_emb (t : Fin cfg1.N) (r : Fin 2000) (col : Fin 384) :
    ((cfg1.win 1).blk t).view.emb (ix2 r col) = ix2 (edgeOf t r) col := by
  obtain ⟨-, -, e0, e1, -⟩ := blockIdx t
  funext a; apply Fin.ext
  match a with
  | ⟨0, _⟩ => show win1_1.index t (0 : Fin 2) * 2000 + 1 * r.val = 2000 * t.val + r.val; omega
  | ⟨1, _⟩ => show win1_1.index t (1 : Fin 2) * 384 + 1 * col.val = col.val; omega

theorem blk4_emb (t : Fin cfg1.N) (r : Fin 2000) (col : Fin 128) :
    ((cfg1.win 4).blk t).view.emb (ix2 r col) = ix2 (edgeOf t r) col := by
  obtain ⟨-, -, -, -, -, -, -, -, e0, e1, -⟩ := blockIdx t
  funext a; apply Fin.ext
  match a with
  | ⟨0, _⟩ => show win1_4.index t (0 : Fin 2) * 2000 + 1 * r.val = 2000 * t.val + r.val; omega
  | ⟨1, _⟩ => show win1_4.index t (1 : Fin 2) * 128 + 1 * col.val = col.val; omega

/-- The scalar term's block from the two input blocks, entry by entry. -/
theorem out4_apply (x0 x1 x2 : Vec Ideal S2000x384 .f32) (x3 : Vec Ideal S2000x3 .f32) (r : Fin 2000) (q : Fin 128) :
    out1_4 x0 x1 x2 x3 (ix2 r q)
      = Cert.Spec.msK (x0 (ix2 r ⟨q.val, by omega⟩)) (x1 (ix2 r ⟨q.val, by omega⟩)) := by
  unfold out1_4
  rw [View.canon_unit_zero zeroOff]
  simp only [View.ld_unit_zero (S := S2000x384) zeroOff]
  exact pay_ms_apply x0 x1 r q

/-- The scalar edge terms as one function of the gathered rows and the filter. -/
def msFn (pg rbf : FVec Ideal S160000x384 .f32) : FVec Ideal S160000x128 .f32 := fun i =>
  Cert.Spec.msK (pg (ix2 (⟨(i 0).val, idx2_lt0 i⟩ : Fin 160000) (⟨(i 1).val, by have := idx2_lt1 i; omega⟩ : Fin 384)))
    (rbf (ix2 (⟨(i 0).val, idx2_lt0 i⟩ : Fin 160000) (⟨(i 1).val, by have := idx2_lt1 i; omega⟩ : Fin 384)))

theorem ms_flushed (c : Dev nD) (t : Fin cfg1.N) :
    (dat1 (V6 m ρ) c).flushed 4 t
      = ((cfg1.win 4).blk t).view.read (Elt Ideal) (msFn (pgArr m ρ c) (rbf2Arr m ρ c)) := by
  show (cfg1.win 4).cut (grid1.coords t) ((dat1 (V6 m ρ) c).after 4 t) = _
  rw [after1_4]
  funext j
  obtain ⟨r, q, rfl⟩ : ∃ (r : Fin 2000) (q : Fin 128), j = ix2 r q := ⟨j 0, j 1, eq_ix2 j⟩
  show out1_4 (iblk1 (V6 m ρ) c 0 t) (iblk1 (V6 m ρ) c 1 t) (iblk1 (V6 m ρ) c 2 t) (iblk1 (V6 m ρ) c 3 t) (ix2 r q)
      = msFn (pgArr m ρ c) (rbf2Arr m ρ c) (((cfg1.win 4).blk t).view.emb (ix2 r q))
  rw [out4_apply, blk4_emb]
  show Cert.Spec.msK (pgArr m ρ c (((cfg1.win 0).blk t).view.emb (ix2 r ⟨q.val, _⟩)))
        (rbf2Arr m ρ c (((cfg1.win 1).blk t).view.emb (ix2 r ⟨q.val, _⟩)))
      = Cert.Spec.msK (pgArr m ρ c (ix2 (edgeOf t r) ⟨q.val, _⟩)) (rbf2Arr m ρ c (ix2 (edgeOf t r) ⟨q.val, _⟩))
  rw [blk0_emb, blk1_emb]

/-- An index of the scalar terms' array is in point `t`'s block iff each coordinate is in the block's range. -/
theorem ms_mem_blk (t : Fin cfg1.N) (i : S160000x128.Idx) :
    i ∈ ((cfg1.win 4).blk t).view.set
      ↔ ∀ a : Fin 2, win1_4.index t a * S2000x128.size a ≤ (i a).val ∧ (i a).val < win1_4.index t a * S2000x128.size a + S2000x128.size a := by
  show i ∈ ((View.whole main_v12_0).slice (win1_4.rect t)).set ↔ _
  rw [View.set_slice_whole, Rect.mem_set_unit]
  exact Iff.rfl

/-- Every edge is in the block of the point `e / 2000`. -/
theorem ms_cover (i : S160000x128.Idx) :
    ∃ t : Fin cfg1.N, (cfg1.win 4).flush t = true ∧ i ∈ ((cfg1.win 4).blk t).view.set := by
  have hi0 : (i 0).val < 160000 := idx2_lt0 i
  have hi1 : (i 1).val < 128 := idx2_lt1 i
  let t : Fin cfg1.N := ⟨(i 0).val / 2000, lt_of_lt_of_eq (by omega) N_1.symm⟩
  have ht : t.val = (i 0).val / 2000 := rfl
  obtain ⟨-, -, -, -, -, -, -, -, e0, e1, -⟩ := blockIdx t
  refine ⟨t, flush1_4 t, ?_⟩
  rw [ms_mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The scalar terms' array after the run. -/
theorem msArr_eq (c : Dev nD) : msArr m ρ c = msFn (pgArr m ρ c) (rbf2Arr m ρ c) :=
  (dat1 (V6 m ρ) c).arrAt_eq_of_cover 4 (msFn (pgArr m ρ c) (rbf2Arr m ρ c)) (fun t _ => ms_flushed m ρ c t) ms_cover

/-! ## The vector terms -/

theorem blk2_emb (t : Fin cfg1.N) (r : Fin 2000) (col : Fin 384) :
    ((cfg1.win 2).blk t).view.emb (ix2 r col) = ix2 (edgeOf t r) col := by
  obtain ⟨-, -, -, -, e0, e1, -⟩ := blockIdx t
  funext a; apply Fin.ext
  match a with
  | ⟨0, _⟩ => show win1_2.index t (0 : Fin 2) * 2000 + 1 * r.val = 2000 * t.val + r.val; omega
  | ⟨1, _⟩ => show win1_2.index t (1 : Fin 2) * 384 + 1 * col.val = col.val; omega

theorem blk3_emb (t : Fin cfg1.N) (r : Fin 2000) (k : Fin 3) :
    ((cfg1.win 3).blk t).view.emb (ix2 r k) = ix2 (edgeOf t r) k := by
  obtain ⟨-, -, -, -, -, -, e0, e1, -⟩ := blockIdx t
  funext a; apply Fin.ext
  match a with
  | ⟨0, _⟩ => show win1_3.index t (0 : Fin 2) * 2000 + 1 * r.val = 2000 * t.val + r.val; omega
  | ⟨1, _⟩ => show win1_3.index t (1 : Fin 2) * 3 + 1 * k.val = k.val; omega

theorem blk5_emb (t : Fin cfg1.N) (r : Fin 2000) (col : Fin 384) :
    ((cfg1.win 5).blk t).view.emb (ix2 r col) = ix2 (edgeOf t r) col := by
  obtain ⟨-, -, -, -, -, -, -, -, -, -, e0, e1⟩ := blockIdx t
  funext a; apply Fin.ext
  match a with
  | ⟨0, _⟩ => show win1_5.index t (0 : Fin 2) * 2000 + 1 * r.val = 2000 * t.val + r.val; omega
  | ⟨1, _⟩ => show win1_5.index t (1 : Fin 2) * 384 + 1 * col.val = col.val; omega

/-- Column `128 k + q` of the vector terms reads column `128 + q` of the product's thirds, -/
def colMid (col : Fin 384) : Fin 384 := ⟨128 + col.val % 128, by omega⟩
/-- column `256 + q`, -/
def colLast (col : Fin 384) : Fin 384 := ⟨256 + col.val % 128, by omega⟩
/-- and direction component `k`. -/
def compOf (col : Fin 384) : Fin 3 := ⟨col.val / 128, by have := col.isLt; omega⟩

theorem colMid_off (o q : Nat) (ho : o % 128 = 0) (hq : q < 128) (h : o + q < 384) :
    colMid ⟨o + q, h⟩ = ⟨128 + q, by omega⟩ := Fin.ext (by show 128 + (o + q) % 128 = 128 + q; omega)
theorem colLast_off (o q : Nat) (ho : o % 128 = 0) (hq : q < 128) (h : o + q < 384) :
    colLast ⟨o + q, h⟩ = ⟨256 + q, by omega⟩ := Fin.ext (by show 256 + (o + q) % 128 = 256 + q; omega)
theorem compOf_off (o q k : Nat) (ho : o = 128 * k) (hq : q < 128) (h : o + q < 384) :
    compOf ⟨o + q, h⟩ = ⟨k, by omega⟩ := Fin.ext (by show (o + q) / 128 = k; omega)

/-- A 128-column rectangle of the block at column offset `o` places `(r, q)` at `(r, o + q)`. -/
theorem colRect_emb (o : Nat) (inb : ∀ a, (![0, o] : Fin 2 → Nat) a + S2000x128.size a ≤ S2000x384.size a)
    (r : Fin 2000) (q : Fin 128) (h : o + q.val < 384) :
    (Rect.unit (s := S2000x384) ![0, o] S2000x128.size inb).emb (ix2 r q) = ix2 r ⟨o + q.val, h⟩ := by
  funext a; apply Fin.ext
  match a with
  | ⟨0, _⟩ => show 0 + 1 * r.val = r.val; omega
  | ⟨1, _⟩ => show o + 1 * q.val = o + q.val; omega

/-- A one-column rectangle of the direction block at column `o` places `(r, 0)` at `(r, o)`. -/
theorem dirRect_emb (o : Nat) (inb : ∀ a, (![0, o] : Fin 2 → Nat) a + S2000x1.size a ≤ S2000x3.size a)
    (r : Fin 2000) (h : o < 3) :
    (Rect.unit (s := S2000x3) ![0, o] S2000x1.size inb).emb (ix2 r (0 : Fin 1)) = ix2 r ⟨o, h⟩ := by
  funext a; apply Fin.ext
  match a with
  | ⟨0, _⟩ => show 0 + 1 * r.val = r.val; omega
  | ⟨1, _⟩ => show o + 1 * 0 = o; omega

/-- The vector term's block as ONE function of the four input blocks. -/
def gateBlk (x0 x1 x2 : Vec Ideal S2000x384 .f32) (x3 : Vec Ideal S2000x3 .f32) : Vec Ideal S2000x384 .f32 := fun y =>
  Cert.Spec.gateK (x2 (ix2 (⟨(y 0).val, idx2_lt0 y⟩ : Fin 2000) (⟨(y 1).val, idx2_lt1 y⟩ : Fin 384)))
    (x0 (ix2 (⟨(y 0).val, idx2_lt0 y⟩ : Fin 2000) (colMid ⟨(y 1).val, idx2_lt1 y⟩)))
    (x1 (ix2 (⟨(y 0).val, idx2_lt0 y⟩ : Fin 2000) (colMid ⟨(y 1).val, idx2_lt1 y⟩)))
    (x3 (ix2 (⟨(y 0).val, idx2_lt0 y⟩ : Fin 2000) (compOf ⟨(y 1).val, idx2_lt1 y⟩)))
    (x0 (ix2 (⟨(y 0).val, idx2_lt0 y⟩ : Fin 2000) (colLast ⟨(y 1).val, idx2_lt1 y⟩)))
    (x1 (ix2 (⟨(y 0).val, idx2_lt0 y⟩ : Fin 2000) (colLast ⟨(y 1).val, idx2_lt1 y⟩)))

theorem gateBlk_apply (x0 x1 x2 : Vec Ideal S2000x384 .f32) (x3 : Vec Ideal S2000x3 .f32) (r : Fin 2000) (col : Fin 384) :
    gateBlk x0 x1 x2 x3 (ix2 r col)
      = Cert.Spec.gateK (x2 (ix2 r col)) (x0 (ix2 r (colMid col))) (x1 (ix2 r (colMid col))) (x3 (ix2 r (compOf col)))
          (x0 (ix2 r (colLast col))) (x1 (ix2 r (colLast col))) := rfl

/-- Each of the three stores is its 128 columns of that function. -/
theorem gate_piece (x0 x1 x2 : Vec Ideal S2000x384 .f32) (x3 : Vec Ideal S2000x3 .f32)
    (o k : Nat) (ho : o = 128 * k) (hk : k < 3)
    (inb : ∀ a, (![0, o] : Fin 2 → Nat) a + S2000x128.size a ≤ S2000x384.size a)
    (inb' : ∀ a, (![0, k] : Fin 2 → Nat) a + S2000x1.size a ≤ S2000x3.size a)
    (P : Vec Ideal S2000x384 .f32 → Vec Ideal S2000x384 .f32 → Vec Ideal S2000x1 .f32 → Vec Ideal S2000x128 .f32 → Vec Ideal S2000x128 .f32)
    (hP : ∀ (ev : Vec Ideal S2000x1 .f32) (vg : Vec Ideal S2000x128 .f32) (r : Fin 2000) (q : Fin 128),
      P x0 x1 ev vg (ix2 r q)
        = Cert.Spec.gateK (vg (ix2 r q)) (x0 (ix2 r ⟨128 + q.val, by omega⟩)) (x1 (ix2 r ⟨128 + q.val, by omega⟩))
            (ev (ix2 r (0 : Fin 1))) (x0 (ix2 r ⟨256 + q.val, by omega⟩)) (x1 (ix2 r ⟨256 + q.val, by omega⟩)))
    (r : Fin 2000) (q : Fin 128) :
    P x0 x1 (View.ld x3 (Rect.unit (s := S2000x3) ![0, k] S2000x1.size inb'))
        (View.ld x2 (Rect.unit (s := S2000x384) ![0, o] S2000x128.size inb)) (ix2 r q)
      = gateBlk x0 x1 x2 x3 ((Rect.unit (s := S2000x384) ![0, o] S2000x128.size inb).emb (ix2 r q)) := by
  have hq := q.isLt
  rw [hP, colRect_emb o inb r q (by omega), gateBlk_apply,
    colMid_off o q.val (by omega) hq, colLast_off o q.val (by omega) hq, compOf_off o q.val k ho hq]
  show Cert.Spec.gateK (x2 ((Rect.unit (s := S2000x384) ![0, o] S2000x128.size inb).emb (ix2 r q))) _ _
      (x3 ((Rect.unit (s := S2000x3) ![0, k] S2000x1.size inb').emb (ix2 r (0 : Fin 1)))) _ _ = _
  rw [colRect_emb o inb r q (by omega), dirRect_emb k inb' r hk]

/-- The vector term's block after the body: the three stores, last first, read back as that one function. -/
theorem out5_eq (x0 x1 x2 : Vec Ideal S2000x384 .f32) (x3 : Vec Ideal S2000x3 .f32) :
    out1_5 x0 x1 x2 x3 = gateBlk x0 x1 x2 x3 := by
  funext y
  unfold out1_5
  simp only [View.ld_unit_zero (S := S2000x384) zeroOff]
  refine View.canon_apply_of_pieces (gateBlk x0 x1 x2 x3) _ ?_ y (cover1_5 _ _ _ y)
  intro p hp
  rcases List.mem_cons.mp hp with rfl | hp
  · intro x
    obtain ⟨r, q, rfl⟩ : ∃ (r : Fin 2000) (q : Fin 128), x = ix2 r q := ⟨x 0, x 1, eq_ix2 x⟩
    exact gate_piece x0 x1 x2 x3 256 2 rfl (by omega) _ _
      (fun x0 x1 ev vg => k1_pay1 (k1_pay8 x0 x1 vg) (k1_pay9 x0 x1 ev)) (fun ev vg r q => pay_gate2_apply x0 x1 ev vg r q) r q
  rcases List.mem_cons.mp hp with rfl | hp
  · intro x
    obtain ⟨r, q, rfl⟩ : ∃ (r : Fin 2000) (q : Fin 128), x = ix2 r q := ⟨x 0, x 1, eq_ix2 x⟩
    exact gate_piece x0 x1 x2 x3 128 1 rfl (by omega) _ _
      (fun x0 x1 ev vg => k1_pay7 x0 x1 ev vg) (fun ev vg r q => pay_gate1_apply x0 x1 ev vg r q) r q
  rcases List.mem_cons.mp hp with rfl | hp
  · intro x
    obtain ⟨r, q, rfl⟩ : ∃ (r : Fin 2000) (q : Fin 128), x = ix2 r q := ⟨x 0, x 1, eq_ix2 x⟩
    exact gate_piece x0 x1 x2 x3 0 0 rfl (by omega) _ _
      (fun x0 x1 ev vg => k1_pay6 x0 x1 ev vg) (fun ev vg r q => pay_gate0_apply x0 x1 ev vg r q) r q
  · exact absurd hp List.not_mem_nil

/-- The vector edge terms as one function of the gathered rows, the filter, the gathered vectors and the directions. -/
def gateFn (pg rbf vg : FVec Ideal S160000x384 .f32) (ev : FVec Ideal S160000x3 .f32) : FVec Ideal S160000x384 .f32 := fun i =>
  Cert.Spec.gateK (vg (ix2 (⟨(i 0).val, idx2_lt0 i⟩ : Fin 160000) (⟨(i 1).val, idx2_lt1 i⟩ : Fin 384)))
    (pg (ix2 (⟨(i 0).val, idx2_lt0 i⟩ : Fin 160000) (colMid ⟨(i 1).val, idx2_lt1 i⟩)))
    (rbf (ix2 (⟨(i 0).val, idx2_lt0 i⟩ : Fin 160000) (colMid ⟨(i 1).val, idx2_lt1 i⟩)))
    (ev (ix2 (⟨(i 0).val, idx2_lt0 i⟩ : Fin 160000) (compOf ⟨(i 1).val, idx2_lt1 i⟩)))
    (pg (ix2 (⟨(i 0).val, idx2_lt0 i⟩ : Fin 160000) (colLast ⟨(i 1).val, idx2_lt1 i⟩)))
    (rbf (ix2 (⟨(i 0).val, idx2_lt0 i⟩ : Fin 160000) (colLast ⟨(i 1).val, idx2_lt1 i⟩)))

theorem gateFn_apply (pg rbf vg : FVec Ideal S160000x384 .f32) (ev : FVec Ideal S160000x3 .f32) (e : Fin 160000) (col : Fin 384) :
    gateFn pg rbf vg ev (ix2 e col)
      = Cert.Spec.gateK (vg (ix2 e col)) (pg (ix2 e (colMid col))) (rbf (ix2 e (colMid col))) (ev (ix2 e (compOf col)))
          (pg (ix2 e (colLast col))) (rbf (ix2 e (colLast col))) := rfl

/-- Each input window's block at point `t`, entry by entry, is rows `2000 t …` of its array. -/
theorem iblk_pg (c : Dev nD) (t : Fin cfg1.N) (r : Fin 2000) (col : Fin 384) :
    iblk1 (V6 m ρ) c 0 t (ix2 r col) = pgArr m ρ c (ix2 (edgeOf t r) col) := by
  show pgArr m ρ c (((cfg1.win 0).blk t).view.emb (ix2 r col)) = _
  rw [blk0_emb]
theorem iblk_rbf (c : Dev nD) (t : Fin cfg1.N) (r : Fin 2000) (col : Fin 384) :
    iblk1 (V6 m ρ) c 1 t (ix2 r col) = rbf2Arr m ρ c (ix2 (edgeOf t r) col) := by
  show rbf2Arr m ρ c (((cfg1.win 1).blk t).view.emb (ix2 r col)) = _
  rw [blk1_emb]
theorem iblk_vg (c : Dev nD) (t : Fin cfg1.N) (r : Fin 2000) (col : Fin 384) :
    iblk1 (V6 m ρ) c 2 t (ix2 r col) = vgArr m ρ c (ix2 (edgeOf t r) col) := by
  show vgArr m ρ c (((cfg1.win 2).blk t).view.emb (ix2 r col)) = _
  rw [blk2_emb]
theorem iblk_ev (c : Dev nD) (t : Fin cfg1.N) (r : Fin 2000) (k : Fin 3) :
    iblk1 (V6 m ρ) c 3 t (ix2 r k) = evArr m ρ c (ix2 (edgeOf t r) k) := by
  show evArr m ρ c (((cfg1.win 3).blk t).view.emb (ix2 r k)) = _
  rw [blk3_emb]

/-- What point `t` writes back is block `t` of that function. -/
theorem gate_flushed (c : Dev nD) (t : Fin cfg1.N) :
    (dat1 (V6 m ρ) c).flushed 5 t
      = ((cfg1.win 5).blk t).view.read (Elt Ideal) (gateFn (pgArr m ρ c) (rbf2Arr m ρ c) (vgArr m ρ c) (evArr m ρ c)) := by
  show (cfg1.win 5).cut (grid1.coords t) ((dat1 (V6 m ρ) c).after 5 t) = _
  rw [after1_5, out5_eq]
  funext j
  obtain ⟨r, col, rfl⟩ : ∃ (r : Fin 2000) (col : Fin 384), j = ix2 r col := ⟨j 0, j 1, eq_ix2 j⟩
  show gateBlk (iblk1 (V6 m ρ) c 0 t) (iblk1 (V6 m ρ) c 1 t) (iblk1 (V6 m ρ) c 2 t) (iblk1 (V6 m ρ) c 3 t) (ix2 r col)
      = gateFn (pgArr m ρ c) (rbf2Arr m ρ c) (vgArr m ρ c) (evArr m ρ c) (((cfg1.win 5).blk t).view.emb (ix2 r col))
  rw [blk5_emb, gateFn_apply, gateBlk_apply, iblk_pg, iblk_pg, iblk_rbf, iblk_rbf, iblk_vg, iblk_ev]

theorem gate_mem_blk (t : Fin cfg1.N) (i : S160000x384.Idx) :
    i ∈ ((cfg1.win 5).blk t).view.set
      ↔ ∀ a : Fin 2, win1_5.index t a * S2000x384.size a ≤ (i a).val ∧ (i a).val < win1_5.index t a * S2000x384.size a + S2000x384.size a := by
  show i ∈ ((View.whole main_v12_1).slice (win1_5.rect t)).set ↔ _
  rw [View.set_slice_whole, Rect.mem_set_unit]
  exact Iff.rfl

theorem gate_cover (i : S160000x384.Idx) :
    ∃ t : Fin cfg1.N, (cfg1.win 5).flush t = true ∧ i ∈ ((cfg1.win 5).blk t).view.set := by
  have hi0 : (i 0).val < 160000 := idx2_lt0 i
  have hi1 : (i 1).val < 384 := idx2_lt1 i
  let t : Fin cfg1.N := ⟨(i 0).val / 2000, lt_of_lt_of_eq (by omega) N_1.symm⟩
  have ht : t.val = (i 0).val / 2000 := rfl
  obtain ⟨-, -, -, -, -, -, -, -, -, -, e0, e1⟩ := blockIdx t
  refine ⟨t, flush1_5 t, ?_⟩
  rw [gate_mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 384 ≤ (i 1).val ∧ (i 1).val < win1_5.index t (1 : Fin 2) * 384 + 384; omega

/-- The vector terms' array after the run. -/
theorem gateArr_eq (c : Dev nD) :
    gateArr m ρ c = gateFn (pgArr m ρ c) (rbf2Arr m ρ c) (vgArr m ρ c) (evArr m ρ c) :=
  (dat1 (V6 m ρ) c).arrAt_eq_of_cover 5 (gateFn (pgArr m ρ c) (rbf2Arr m ρ c) (vgArr m ρ c) (evArr m ρ c))
    (fun t _ => gate_flushed m ρ c t) gate_cover

end EdgeTerms

open EdgeTerms

/-- Entry `(e, q)` of the scalar edge terms. -/
theorem msArr_apply (c : Dev nD) (e : Fin 160000) (q : Fin 128) :
    msArr m ρ c (ix2 e q)
      = Cert.Spec.msK (pgArr m ρ c (ix2 e ⟨q.val, by omega⟩)) (rbf2Arr m ρ c (ix2 e ⟨q.val, by omega⟩)) := by
  rw [msArr_eq]
  rfl

/-- Entry `(e, 128 k + q)` of the vector edge terms. -/
theorem gateArr_apply (c : Dev nD) (e : Fin 160000) (k : Fin 3) (q : Fin 128) :
    gateArr m ρ c (ix2 e ⟨128 * k.val + q.val, by omega⟩)
      = Cert.Spec.gateK (vgArr m ρ c (ix2 e ⟨128 * k.val + q.val, by omega⟩))
          (pgArr m ρ c (ix2 e ⟨128 + q.val, by omega⟩)) (rbf2Arr m ρ c (ix2 e ⟨128 + q.val, by omega⟩))
          (evArr m ρ c (ix2 e k))
          (pgArr m ρ c (ix2 e ⟨256 + q.val, by omega⟩)) (rbf2Arr m ρ c (ix2 e ⟨256 + q.val, by omega⟩)) := by
  have hq := q.isLt
  have hk := k.isLt
  rw [gateArr_eq, gateFn_apply, colMid_off (128 * k.val) q.val (by omega) hq, colLast_off (128 * k.val) q.val (by omega) hq,
    compOf_off (128 * k.val) q.val k.val rfl hq]

end Cert.KernelIdeal.KV

end
-- ==== Proof.ScatterLaw.lean ====
/-
  The accumulating scatter onto zeros commutes with the edge scale: every entry of the result is a finite sum of
  update entries, and the nonnegative real scale distributes over it.
-/
import proofs.«406259_j12489764897067_3_alg».proof.Proof.Spec
import Idealize.ShloMosaic.PureOps.Ideal

set_option maxRecDepth 16384

noncomputable section

namespace Cert.Spec

open Idealize.ShloMosaic

/-- Updates that are the scaled entries of `G` scatter to the scaled scatter of `G`. -/
theorem scatterAdd_scale {s si su : Shape} (d : ScatterDims s si su) {w : Nat} (idx : IVec si w) (U G : su.Idx → EReal)
    (hU : ∀ j, U j = G j * κ) (i : s.Idx) :
    Ideal.hostScatterAdd d (fun _ => (0 : EReal)) idx U i = Ideal.hostScatterAdd d (fun _ => (0 : EReal)) idx G i * κ := by
  unfold Ideal.hostScatterAdd
  rw [zero_add, zero_add, scale_sum]
  exact Finset.sum_congr rfl fun j _ => hU j

end Cert.Spec

end
-- ==== Proof.ScatterUnit.lean ====
/-
  The scalar messages are scattered over nodes as a [nodes, 128] table by one program and as a [nodes, 1, 128] table by
  the other: the same sums, because the unit axis carries no choice — update `(e, q)` lands on `(n, q')` exactly when
  update `(e, 0, q)` lands on `(n, 0, q')`.
-/
import proofs.«406259_j12489764897067_3_alg».proof.Proof.Gen.KernelIdeal
import proofs.«406259_j12489764897067_3_alg».proof.Proof.Gen.ReferenceIdeal
import Idealize.ShloMosaic.Lib.ValueIdx
import Idealize.ShloMosaic.PureOps.Ideal

set_option maxRecDepth 16384

noncomputable section

namespace Cert.Spec

open Idealize.ShloMosaic Idealize.ShloMosaic.ValueIdx

namespace ScatterUnit

/-- The result index of an update is `i` exactly when start plus window coordinate is `i`'s coordinate on every axis. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have h1 := congrFun (Option.some.inj h) a
      have hv := congrArg Fin.val h1
      simp only at hv
      have := (hh a).1
      omega
    · exact absurd h (by simp)
  · intro h
    have hh : ∀ a, 0 ≤ d.start j idx a + d.window j a ∧ d.start j idx a + d.window j a < s.size a := by
      intro a; rw [h a]; exact ⟨Int.natCast_nonneg _, by exact_mod_cast (i a).isLt⟩
    rw [dif_pos hh]
    congr 1
    funext a
    apply Fin.ext
    show (d.start j idx a + d.window j a).toNat = (i a).val
    rw [h a]; simp

/-- The scatter onto the [10000, 128] table. -/
abbrev d2 := Cert.KernelIdeal.scatter_S10000x128_S160000x1_S160000x128_1_0_0_1
/-- The scatter onto the [10000, 1, 128] table. -/
abbrev d3 := Cert.ReferenceIdeal.scatter_S10000x1x128_S160000x1_S160000x1x128_12_0_0_1

/-! ### The [10000, 128] table, axis by axis -/

/-- On the node axis the window starts at row `e`'s index word, read signed. -/
theorem start2_0 (e : Fin 160000) (q : Fin 128) (idx : IVec Cert.KernelIdeal.S160000x1 32) :
    d2.start (ix2 e q) idx 0 = (idx (ix2 e 0)).toInt := by
  unfold ScatterDims.start
  rw [dif_pos (show (0 : Fin 2) ∈ d2.scatterDimsToOperandDims from List.mem_singleton.mpr rfl)]
  congr 2
  funext b; refine Fin.ext ?_
  match b with
  | ⟨0, _⟩ => rfl
  | ⟨1, _⟩ => rfl

/-- The lane axis is not an indexed axis: its window starts at 0. -/
theorem start2_1 (e : Fin 160000) (q : Fin 128) (idx : IVec Cert.KernelIdeal.S160000x1 32) :
    d2.start (ix2 e q) idx 1 = 0 := by
  unfold ScatterDims.start
  rw [dif_neg (show ¬ (1 : Fin 2) ∈ d2.scatterDimsToOperandDims from by decide)]

/-- The node axis is an inserted axis: its window coordinate is 0. -/
theorem window2_0 (e : Fin 160000) (q : Fin 128) : d2.window (ix2 e q) 0 = 0 := by
  unfold ScatterDims.window
  rw [dif_neg (show ¬ (0 : Fin 2) ∈ d2.sKept from by decide)]

/-- The lane axis takes the update's lane. -/
theorem window2_1 (e : Fin 160000) (q : Fin 128) : d2.window (ix2 e q) 1 = q.val := by
  unfold ScatterDims.window
  rw [dif_pos (show (1 : Fin 2) ∈ d2.sKept from by decide)]
  rfl

/-- Update `(e, q)` lands on `(n, q')` exactly when row `e`'s index word is `n` and the lanes agree. -/
theorem res2 (idx : IVec Cert.KernelIdeal.S160000x1 32) (e : Fin 160000) (q : Fin 128) (n : Fin 10000) (q' : Fin 128) :
    d2.resultIdx? (ix2 e q) idx = some (ix2 n q') ↔ (idx (ix2 e 0)).toInt = (n.val : Int) ∧ q = q' := by
  rw [resultIdx?_eq_some_iff]
  constructor
  · intro h
    have h0 := h 0
    have h1 := h 1
    rw [start2_0, window2_0] at h0
    rw [start2_1, window2_1] at h1
    have h0' : (idx (ix2 e 0)).toInt + ((0 : Nat) : Int) = (n.val : Int) := h0
    have h1' : (0 : Int) + (q.val : Int) = (q'.val : Int) := h1
    exact ⟨by omega, Fin.ext (by omega)⟩
  · rintro ⟨h0, rfl⟩ a
    match a with
    | ⟨0, _⟩ =>
      show d2.start (ix2 e q) idx 0 + (d2.window (ix2 e q) 0 : Int) = (n.val : Int)
      rw [start2_0, window2_0, h0]; simp
    | ⟨1, _⟩ =>
      show d2.start (ix2 e q) idx 1 + (d2.window (ix2 e q) 1 : Int) = (q.val : Int)
      rw [start2_1, window2_1]; simp

/-! ### The [10000, 1, 128] table, axis by axis -/

/-- On the node axis the window starts at row `e`'s index word, read signed. -/
theorem start3_0 (e : Fin 160000) (q : Fin 128) (idx : IVec Cert.KernelIdeal.S160000x1 32) :
    d3.start (ix3 e (0 : Fin 1) q) idx 0 = (idx (ix2 e 0)).toInt := by
  unfold ScatterDims.start
  rw [dif_pos (show (0 : Fin 3) ∈ d3.scatterDimsToOperandDims from List.mem_singleton.mpr rfl)]
  congr 2
  funext b; refine Fin.ext ?_
  match b with
  | ⟨0, _⟩ => rfl
  | ⟨1, _⟩ => rfl

/-- The unit axis is not an indexed axis. -/
theorem start3_1 (e : Fin 160000) (q : Fin 128) (idx : IVec Cert.KernelIdeal.S160000x1 32) :
    d3.start (ix3 e (0 : Fin 1) q) idx 1 = 0 := by
  unfold ScatterDims.start
  rw [dif_neg (show ¬ (1 : Fin 3) ∈ d3.scatterDimsToOperandDims from by decide)]

/-- Nor is the lane axis. -/
theorem start3_2 (e : Fin 160000) (q : Fin 128) (idx : IVec Cert.KernelIdeal.S160000x1 32) :
    d3.start (ix3 e (0 : Fin 1) q) idx 2 = 0 := by
  unfold ScatterDims.start
  rw [dif_neg (show ¬ (2 : Fin 3) ∈ d3.scatterDimsToOperandDims from by decide)]

/-- The node axis is an inserted axis: its window coordinate is 0. -/
theorem window3_0 (e : Fin 160000) (q : Fin 128) : d3.window (ix3 e (0 : Fin 1) q) 0 = 0 := by
  unfold ScatterDims.window
  rw [dif_neg (show ¬ (0 : Fin 3) ∈ d3.sKept from by decide)]

/-- The unit axis takes the update's unit coordinate, which is 0. -/
theorem window3_1 (e : Fin 160000) (q : Fin 128) : d3.window (ix3 e (0 : Fin 1) q) 1 = 0 := by
  unfold ScatterDims.window
  rw [dif_pos (show (1 : Fin 3) ∈ d3.sKept from by decide)]
  rfl

/-- The lane axis takes the update's lane. -/
theorem window3_2 (e : Fin 160000) (q : Fin 128) : d3.window (ix3 e (0 : Fin 1) q) 2 = q.val := by
  unfold ScatterDims.window
  rw [dif_pos (show (2 : Fin 3) ∈ d3.sKept from by decide)]
  rfl

/-- Update `(e, 0, q)` lands on `(n, 0, q')` under the same condition. -/
theorem res3 (idx : IVec Cert.KernelIdeal.S160000x1 32) (e : Fin 160000) (q : Fin 128) (n : Fin 10000) (q' : Fin 128) :
    d3.resultIdx? (ix3 e (0 : Fin 1) q) idx = some (ix3 n (0 : Fin 1) q')
      ↔ (idx (ix2 e 0)).toInt = (n.val : Int) ∧ q = q' := by
  rw [resultIdx?_eq_some_iff]
  constructor
  · intro h
    have h0 := h 0
    have h2 := h 2
    rw [start3_0, window3_0] at h0
    rw [start3_2, window3_2] at h2
    have h0' : (idx (ix2 e 0)).toInt + ((0 : Nat) : Int) = (n.val : Int) := h0
    have h2' : (0 : Int) + (q.val : Int) = (q'.val : Int) := h2
    exact ⟨by omega, Fin.ext (by omega)⟩
  · rintro ⟨h0, rfl⟩ a
    match a with
    | ⟨0, _⟩ =>
      show d3.start (ix3 e (0 : Fin 1) q) idx 0 + (d3.window (ix3 e (0 : Fin 1) q) 0 : Int) = (n.val : Int)
      rw [start3_0, window3_0, h0]; simp
    | ⟨1, _⟩ =>
      show d3.start (ix3 e (0 : Fin 1) q) idx 1 + (d3.window (ix3 e (0 : Fin 1) q) 1 : Int) = ((0 : Fin 1).val : Int)
      rw [start3_1, window3_1]; simp
    | ⟨2, _⟩ =>
      show d3.start (ix3 e (0 : Fin 1) q) idx 2 + (d3.window (ix3 e (0 : Fin 1) q) 2 : Int) = (q.val : Int)
      rw [start3_2, window3_2]; simp

/-- Every index of the [160000, 1, 128] updates is `(e, 0, q)`. -/
theorem eq_ix3_unit (j : Cert.ReferenceIdeal.S160000x1x128.Idx) :
    j = ix3 (n0 := 160000) (n1 := 1) (n2 := 128) (j 0) (0 : Fin 1) (j 2) := by
  have h := eq_ix3 j
  have h1 : j 1 = (0 : Fin 1) := @Subsingleton.elim (Fin 1) _ (j 1) 0
  rw [h1] at h
  exact h

end ScatterUnit

open ScatterUnit

/-- The two scatters agree entry by entry when the updates do. -/
theorem scatter_unit (idx : IVec Cert.KernelIdeal.S160000x1 32) (U2 : Cert.KernelIdeal.S160000x128.Idx → EReal)
    (U3 : Cert.ReferenceIdeal.S160000x1x128.Idx → EReal)
    (hU : ∀ (e : Fin 160000) (q : Fin 128), U2 (ix2 e q) = U3 (ix3 e (0 : Fin 1) q)) (n : Fin 10000) (q : Fin 128) :
    Ideal.hostScatterAdd Cert.KernelIdeal.scatter_S10000x128_S160000x1_S160000x128_1_0_0_1 (fun _ => (0 : EReal)) idx U2 (ix2 n q)
      = Ideal.hostScatterAdd Cert.ReferenceIdeal.scatter_S10000x1x128_S160000x1_S160000x1x128_12_0_0_1 (fun _ => (0 : EReal)) idx U3
          (ix3 n (0 : Fin 1) q) := by
  -- Both sides are 0 plus a sum over the updates that land on the entry; re-index along (e, q) ↔ (e, 0, q).
  unfold Ideal.hostScatterAdd
  rw [zero_add, zero_add]
  refine Finset.sum_nbij'
    (fun j2 : Cert.KernelIdeal.S160000x128.Idx => (ix3 (n0 := 160000) (n1 := 1) (n2 := 128) (j2 0) (0 : Fin 1) (j2 1) : Cert.ReferenceIdeal.S160000x1x128.Idx))
    (fun j3 : Cert.ReferenceIdeal.S160000x1x128.Idx => (ix2 (n0 := 160000) (n1 := 128) (j3 0) (j3 2) : Cert.KernelIdeal.S160000x128.Idx))
    ?_ ?_ ?_ ?_ ?_
  · intro j2 hj2
    rw [Finset.mem_filter] at hj2 ⊢
    refine ⟨Finset.mem_univ _, ?_⟩
    have h := hj2.2
    rw [eq_ix2 j2] at h
    exact (res3 idx _ _ n q).2 ((res2 idx _ _ n q).1 h)
  · intro j3 hj3
    rw [Finset.mem_filter] at hj3 ⊢
    refine ⟨Finset.mem_univ _, ?_⟩
    have h := hj3.2
    rw [eq_ix3_unit j3] at h
    exact (res2 idx _ _ n q).2 ((res3 idx _ _ n q).1 h)
  · intro j2 _
    exact (eq_ix2 j2).symm
  · intro j3 _
    exact (eq_ix3_unit j3).symm
  · intro j2 _
    rw [eq_ix2 j2]
    exact hU _ _

end Cert.Spec

end
-- ==== Proof.RefGather.lean ====
/-
  The reference's two row-gathers by the source index, read at an entry: with the index in range, edge `e` reads the
  row of the node its source index names.
-/
import proofs.«406259_j12489764897067_3_alg».proof.Proof.Gen.ReferenceIdeal.Read
import Idealize.ShloMosaic.Lib.ValueIdx
import Idealize.ShloMosaic.Lib.StableHlo.Predicate

set_option maxRecDepth 16384

noncomputable section

namespace Cert.ReferenceIdeal.RefValue

open Cert.ReferenceIdeal Cert.ReferenceIdeal.Read
open Idealize.ShloMosaic Idealize.ShloMosaic.ValueIdx

namespace RefGather

/-! ## A gather of whole rows: operand `[N, A, B]`, start indices `[n, 1]`, result `[n, A, B]` -/

section Rows
variable {α : Type}

/-- The dimension numbers of `table[idx]` over a rank-3 table indexed along its first axis: that axis collapsed and
    start-indexed, the other two carried whole as offset axes, the index vector on the start indices' axis 1. -/
abbrev rowDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The row gather read at `(e, k, q)`: the table at row `idx[e, 0]` (read signed, clamped into `[0, N − 1]`), at the same
    `(k, q)`. -/
theorem gather_rows_apply {N A B n w : Nat} (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (e : Fin n) (k : Fin A) (q : Fin B) :
    Host.gather (rowDims N A B n wf) x idx (ix3 e k q)
      = x (ix3 ⟨min (idx (ix2 e (0 : Fin 1))).toInt.toNat (N - 1), by omega⟩ k q) := by
  unfold Host.gather
  congr 1
  funext a
  refine Fin.ext ?_
  match a with
  | ⟨0, _⟩ =>
    show (rowDims N A B n wf).start (ix3 e k q) idx 0 + (rowDims N A B n wf).batchCoord (ix3 e k q) 0
      + (rowDims N A B n wf).offCoord (ix3 e k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowDims N A B n wf).startIndexMap from List.mem_singleton.mpr rfl)]
    have hsi : (rowDims N A B n wf).siIdx (ix3 e k q) ⟨List.idxOf (0 : Fin 3) (rowDims N A B n wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N A B n wf).start (ix3 e k q) idx 1 + (rowDims N A B n wf).batchCoord (ix3 e k q) 1
      + (rowDims N A B n wf).offCoord (ix3 e k q) 1 = k.val
    have hst : (rowDims N A B n wf).start (ix3 e k q) idx 1 = 0 := by
      unfold GatherDims.start
      exact dif_neg (show (1 : Fin 3) ∉ ([0] : List (Fin 3)) by decide)
    have hk : (1 : Fin 3) ∈ (rowDims N A B n wf).sKept :=
      (GatherDims.mem_sKept _ _).2 ⟨show (1 : Fin 3) ∉ ([0] : List (Fin 3)) by decide, List.not_mem_nil⟩
    rw [hst, GatherDims.batchCoord_eq_zero _ _ _ List.not_mem_nil]
    simp only [Nat.zero_add]
    unfold GatherDims.offCoord
    rw [dif_pos hk]
    rfl
  | ⟨2, _⟩ =>
    show (rowDims N A B n wf).start (ix3 e k q) idx 2 + (rowDims N A B n wf).batchCoord (ix3 e k q) 2
      + (rowDims N A B n wf).offCoord (ix3 e k q) 2 = q.val
    have hst : (rowDims N A B n wf).start (ix3 e k q) idx 2 = 0 := by
      unfold GatherDims.start
      exact dif_neg (show (2 : Fin 3) ∉ ([0] : List (Fin 3)) by decide)
    have hk : (2 : Fin 3) ∈ (rowDims N A B n wf).sKept :=
      (GatherDims.mem_sKept _ _).2 ⟨show (2 : Fin 3) ∉ ([0] : List (Fin 3)) by decide, List.not_mem_nil⟩
    rw [hst, GatherDims.batchCoord_eq_zero _ _ _ List.not_mem_nil]
    simp only [Nat.zero_add]
    unfold GatherDims.offCoord
    rw [dif_pos hk]
    rfl

end Rows

/-! ## The start indices: under the range hypothesis the wrap of a negative index is not taken -/

/-- A word that is not negative is not signed-below the zero word. -/
theorem slt_zero_of_nonneg (w : BitVec 32) (h : 0 ≤ w.toInt) : IntOp.cmpi .slt w 0#32 = 0#1 := by
  have h0 : (0#32 : BitVec 32).toInt = 0 := by decide
  have hb : w.slt 0#32 = false := by
    simp only [BitVec.slt, h0, decide_eq_false_iff_not, not_lt]
    exact h
  show BitVec.ofBool (w.slt 0#32) = 0#1
  rw [hb]
  rfl

/-- The one row of the `[160000, 1]` start-index column that a broadcast along axis 0 reads at `(e, 0)`. -/
theorem idx_main_v31_row (e : Fin 160000) : idx_main_v31 (ix2 e (0 : Fin 1)) = ix1 e := by
  funext a
  match a with
  | ⟨0, _⟩ => rfl

theorem idx_main_v45_row (e : Fin 160000) : idx_main_v45 (ix2 e (0 : Fin 1)) = ix1 e := by
  funext a
  match a with
  | ⟨0, _⟩ => rfl

/-- With every source index non-negative, the first start-index column holds the source index itself. -/
theorem start31_apply (x2 : IVec S2x160000 32)
    (hj : ∀ e : Fin 160000, 0 ≤ (val_main_v3 (F := Ideal) x2 (ix1 e)).toInt ∧ (val_main_v3 (F := Ideal) x2 (ix1 e)).toInt < 10000)
    (e : Fin 160000) :
    val_main_v31 (F := Ideal) x2 (ix2 e (0 : Fin 1)) = val_main_v3 (F := Ideal) x2 (ix1 e) := by
  rw [val_main_v31_apply, idx_main_v31_row, val_main_v30_apply, val_main_v27_apply, val_main_v26_apply, val_main_c_apply,
    slt_zero_of_nonneg _ (hj e).1, select_zero]

/-- The same for the second start-index column (the program computes it twice). -/
theorem start45_apply (x2 : IVec S2x160000 32)
    (hj : ∀ e : Fin 160000, 0 ≤ (val_main_v3 (F := Ideal) x2 (ix1 e)).toInt ∧ (val_main_v3 (F := Ideal) x2 (ix1 e)).toInt < 10000)
    (e : Fin 160000) :
    val_main_v45 (F := Ideal) x2 (ix2 e (0 : Fin 1)) = val_main_v3 (F := Ideal) x2 (ix1 e) := by
  rw [val_main_v45_apply, idx_main_v45_row, val_main_v44_apply, val_main_v41_apply, val_main_v40_apply, val_main_c_4_apply,
    slt_zero_of_nonneg _ (hj e).1, select_zero]

end RefGather

open RefGather

/-- The node edge `e` reads: its source index read signed and clamped into the table. -/
def srcNode (x2 : IVec S2x160000 32) (e : Fin 160000) : Fin 10000 :=
  ⟨min (val_main_v3 (F := Ideal) x2 (ix1 e)).toInt.toNat 9999, by omega⟩

/-- The gather of `phi_s`. -/
theorem ref_gather_phi (x0 : FVec Ideal S10000x1x128 .f32) (x2 : IVec S2x160000 32) (x5 : FVec Ideal S128x128 .f32)
    (x6 : FVec Ideal S128 .f32) (x7 : FVec Ideal S384x128 .f32) (x8 : FVec Ideal S384 .f32) (x9 : FVec Ideal S128 .f32)
    (hj : ∀ e : Fin 160000, 0 ≤ (val_main_v3 (F := Ideal) x2 (ix1 e)).toInt ∧ (val_main_v3 (F := Ideal) x2 (ix1 e)).toInt < 10000)
    (e : Fin 160000) (d : Fin 384) :
    val_main_v32 (F := Ideal) x0 x2 x5 x6 x7 x8 x9 (ix3 e (0 : Fin 1) d)
      = val_main_v25 (F := Ideal) x0 x5 x6 x7 x8 x9 (ix3 (srcNode x2 e) (0 : Fin 1) d) := by
  unfold val_main_v32
  generalize val_main_v25 (F := Ideal) x0 x5 x6 x7 x8 x9 = T
  have wf : GatherDims.WF ⟨3, ![10000, 1, 384]⟩ ⟨2, ![160000, 1]⟩ ⟨3, ![160000, 1, 384]⟩ [1, 2] [0] [] [0] [] 1 ![1, 1, 384] :=
    gather_S10000x1x384_S160000x1_S160000x1x384_12_0_n_n_0_1_11384.wf
  have hd : gather_S10000x1x384_S160000x1_S160000x1x384_12_0_n_n_0_1_11384 = rowDims 10000 1 384 160000 wf := rfl
  rw [hd, gather_rows_apply (by decide)]
  refine congrArg (fun r => T (ix3 r (0 : Fin 1) d)) (Fin.ext ?_)
  show min (val_main_v31 (F := Ideal) x2 (ix2 e (0 : Fin 1))).toInt.toNat (10000 - 1)
    = min (val_main_v3 (F := Ideal) x2 (ix1 e)).toInt.toNat 9999
  rw [start31_apply x2 hj e]

/-- The gather of the vector features. -/
theorem ref_gather_v (x1 : FVec Ideal S10000x3x128 .f32) (x2 : IVec S2x160000 32)
    (hj : ∀ e : Fin 160000, 0 ≤ (val_main_v3 (F := Ideal) x2 (ix1 e)).toInt ∧ (val_main_v3 (F := Ideal) x2 (ix1 e)).toInt < 10000)
    (e : Fin 160000) (k : Fin 3) (q : Fin 128) :
    val_main_v46 (F := Ideal) x1 x2 (ix3 e k q) = x1 (ix3 (srcNode x2 e) k q) := by
  unfold val_main_v46
  have wf : GatherDims.WF ⟨3, ![10000, 3, 128]⟩ ⟨2, ![160000, 1]⟩ ⟨3, ![160000, 3, 128]⟩ [1, 2] [0] [] [0] [] 1 ![1, 3, 128] :=
    gather_S10000x3x128_S160000x1_S160000x3x128_12_0_n_n_0_1_13128.wf
  have hd : gather_S10000x3x128_S160000x1_S160000x3x128_12_0_n_n_0_1_13128 = rowDims 10000 3 128 160000 wf := rfl
  rw [hd, gather_rows_apply (by decide)]
  refine congrArg (fun r => x1 (ix3 r k q)) (Fin.ext ?_)
  show min (val_main_v45 (F := Ideal) x2 (ix2 e (0 : Fin 1))).toInt.toNat (10000 - 1)
    = min (val_main_v3 (F := Ideal) x2 (ix1 e)).toInt.toNat 9999
  rw [start45_apply x2 hj e]

end Cert.ReferenceIdeal.RefValue

end
-- ==== Proof.RefEdge.lean ====
/-
  The reference's two unscaled edge terms at an entry, in terms of its product `phi_s[source] · rbf` (the stage before
  the split into thirds): the scalar term is the first third; the vector term of component `k` is the source's vector
  feature against the second third plus the edge's direction component against the last third.
-/
import proofs.«406259_j12489764897067_3_alg».proof.Proof.RefGather
import Idealize.ShloMosaic.Lib.ValueIdx

set_option maxRecDepth 16384

noncomputable section

namespace Cert.ReferenceIdeal.RefValue

open Cert.ReferenceIdeal Cert.ReferenceIdeal.Read
open Idealize.ShloMosaic Idealize.ShloMosaic.ValueIdx

section
variable (x0 : FVec Ideal S10000x1x128 .f32) (x1 : FVec Ideal S10000x3x128 .f32) (x2 : IVec S2x160000 32)
  (x3 : FVec Ideal S160000x1x384 .f32) (x4 : FVec Ideal S160000x3 .f32) (x5 : FVec Ideal S128x128 .f32) (x6 : FVec Ideal S128 .f32)
  (x7 : FVec Ideal S384x128 .f32) (x8 : FVec Ideal S384 .f32) (x9 : FVec Ideal S128 .f32)

/-- The scalar term: the first third of the product. -/
theorem ref_ms_apply (e : Fin 160000) (q : Fin 128) :
    val_main_v34 (F := Ideal) x0 x2 x3 x5 x6 x7 x8 x9 (ix3 e (0 : Fin 1) q)
      = val_main_v33 (F := Ideal) x0 x2 x3 x5 x6 x7 x8 x9 (ix3 e (0 : Fin 1) ⟨q.val, by omega⟩) := by
  rw [val_main_v34_apply]
  refine congrArg _ (funext fun a => Fin.ext ?_)
  match a with
  | ⟨0, _⟩ => rfl
  | ⟨1, _⟩ => rfl
  | ⟨2, _⟩ => rfl

/-- The second third, spread over the three components. -/
theorem ref_vv_apply (e : Fin 160000) (k : Fin 3) (q : Fin 128) :
    val_main_v47 (F := Ideal) x0 x2 x3 x5 x6 x7 x8 x9 (ix3 e k q)
      = val_main_v33 (F := Ideal) x0 x2 x3 x5 x6 x7 x8 x9 (ix3 e (0 : Fin 1) ⟨128 + q.val, by omega⟩) := by
  rw [val_main_v47_apply, val_main_v35_apply]
  refine congrArg _ (funext fun a => Fin.ext ?_)
  match a with
  | ⟨0, _⟩ => rfl
  | ⟨1, _⟩ => rfl
  | ⟨2, _⟩ => rfl

/-- The last third, spread over the three components. -/
theorem ref_vs_apply (e : Fin 160000) (k : Fin 3) (q : Fin 128) :
    val_main_v51 (F := Ideal) x0 x2 x3 x5 x6 x7 x8 x9 (ix3 e k q)
      = val_main_v33 (F := Ideal) x0 x2 x3 x5 x6 x7 x8 x9 (ix3 e (0 : Fin 1) ⟨256 + q.val, by omega⟩) := by
  rw [val_main_v51_apply, val_main_v36_apply]
  refine congrArg _ (funext fun a => Fin.ext ?_)
  match a with
  | ⟨0, _⟩ => rfl
  | ⟨1, _⟩ => rfl
  | ⟨2, _⟩ => rfl

/-- The edge's direction, spread over the 128 columns. -/
theorem ref_ev_apply (e : Fin 160000) (k : Fin 3) (q : Fin 128) :
    val_main_v50 (F := Ideal) x4 (ix3 e k q) = x4 (ix2 e k) := by
  rw [val_main_v50_apply, val_main_v49_apply]
  refine congrArg _ (funext fun a => Fin.ext ?_)
  match a with
  | ⟨0, _⟩ => rfl
  | ⟨1, _⟩ => rfl

/-- The vector term of component `k`. -/
theorem ref_gate_apply
    (hj : ∀ e : Fin 160000, 0 ≤ (val_main_v3 (F := Ideal) x2 (ix1 e)).toInt ∧ (val_main_v3 (F := Ideal) x2 (ix1 e)).toInt < 10000)
    (e : Fin 160000) (k : Fin 3) (q : Fin 128) :
    val_main_v53 (F := Ideal) x0 x1 x2 x3 x4 x5 x6 x7 x8 x9 (ix3 e k q)
      = x1 (ix3 (srcNode x2 e) k q) * val_main_v33 (F := Ideal) x0 x2 x3 x5 x6 x7 x8 x9 (ix3 e (0 : Fin 1) ⟨128 + q.val, by omega⟩)
        + x4 (ix2 e k) * val_main_v33 (F := Ideal) x0 x2 x3 x5 x6 x7 x8 x9 (ix3 e (0 : Fin 1) ⟨256 + q.val, by omega⟩) := by
  rw [val_main_v53_apply, val_main_v48_apply, val_main_v52_apply, ref_gather_v x1 x2 hj, ref_vv_apply, ref_vs_apply, ref_ev_apply]
  rfl

end

end Cert.ReferenceIdeal.RefValue

end
-- ==== Proof.NodeRef.lean ====
/-
  The reference's node network at one entry: its stage `phi_s` (before the gather) at node `n`, output `d`, is the
  same function `phi` of row `n` of the features, the weights read as given.
-/
import proofs.«406259_j12489764897067_3_alg».proof.Proof.Gen.ReferenceIdeal.Read
import proofs.«406259_j12489764897067_3_alg».proof.Proof.Spec
import Idealize.ShloMosaic.Lib.ValueIdx
import Idealize.ShloMosaic.PureOps.Ideal.Laws
import Idealize.ShloMosaic.Lib.IdealHost

set_option maxRecDepth 16384

noncomputable section

namespace Cert.ReferenceIdeal.RefValue

open Cert.ReferenceIdeal Cert.ReferenceIdeal.Read
open Idealize.ShloMosaic Idealize.ShloMosaic.ValueIdx

/-! The stages of the node network read at one row, innermost first. -/
namespace NodeNet

/-- The sum of squares of row `n`: the float sum's initial value is the zero word, which adds nothing. -/
theorem sumsq_apply (x0 : FVec Ideal S10000x1x128 .f32) (n : Fin 10000) :
    val_main_v5 (F := Ideal) x0 (ix2 n (0 : Fin 1))
      = ∑ c : Fin 128, x0 (ix3 n (0 : Fin 1) c) * x0 (ix3 n (0 : Fin 1) c) := by
  rw [val_main_v5_apply, val_main_cst_apply, Ideal.ofBits_def, Ideal.ofBits_zero_f32, zero_add]
  refine Finset.sum_congr rfl fun c _ => ?_
  have e : idx_main_v5 (ix2 n (0 : Fin 1)) c = ix3 n (0 : Fin 1) c :=
    funext fun a => Fin.ext (by match a with | ⟨0, _⟩ => rfl | ⟨1, _⟩ => rfl | ⟨2, _⟩ => rfl)
  rw [e, val_main_v4_apply, Ideal.mulf_def]

/-- The inverse root of (mean of squares + ε) of row `n`. -/
theorem rinv_apply (x0 : FVec Ideal S10000x1x128 .f32) (n : Fin 10000) :
    val_main_v11 (F := Ideal) x0 (ix3 n (0 : Fin 1) (0 : Fin 1))
      = Cert.Spec.rinv (fun c => x0 (ix3 n (0 : Fin 1) c)) := by
  have e6 : idx_main_v6 (ix3 n (0 : Fin 1) (0 : Fin 1)) = ix2 n (0 : Fin 1) :=
    funext fun a => Fin.ext (by match a with | ⟨0, _⟩ => rfl | ⟨1, _⟩ => rfl)
  rw [val_main_v11_apply, val_main_v10_apply, val_main_v8_apply, val_main_v6_apply, e6, sumsq_apply,
    val_main_v7_apply, val_main_cst_0_apply, val_main_v9_apply, val_main_cst_1_apply]
  rfl

/-- The normalised row `n`, entry `c`. -/
theorem snorm_apply (x0 : FVec Ideal S10000x1x128 .f32) (x9 : FVec Ideal S128 .f32) (n : Fin 10000) (c : Fin 128) :
    val_main_v16 (F := Ideal) x0 x9 (ix3 n (0 : Fin 1) c)
      = Cert.Spec.snorm (fun c => x0 (ix3 n (0 : Fin 1) c)) (fun c => x9 (ix1 c)) c := by
  have e12 : idx_main_v12 (ix3 n (0 : Fin 1) c) = ix3 n (0 : Fin 1) (0 : Fin 1) :=
    funext fun a => Fin.ext (by match a with | ⟨0, _⟩ => rfl | ⟨1, _⟩ => rfl | ⟨2, _⟩ => rfl)
  have e15 : idx_main_v14 (idx_main_v15 (ix3 n (0 : Fin 1) c)) = ix1 c :=
    funext fun a => Fin.ext (by match a with | ⟨0, _⟩ => rfl)
  rw [val_main_v16_apply, val_main_v13_apply, val_main_v12_apply, e12, rinv_apply, val_main_v15_apply,
    val_main_v14_apply, e15]
  rfl

/-- Hidden unit `k` of row `n` before the activation. -/
theorem pre1_apply (x0 : FVec Ideal S10000x1x128 .f32) (x5 : FVec Ideal S128x128 .f32) (x6 x9 : FVec Ideal S128 .f32)
    (n : Fin 10000) (k : Fin 128) :
    val_main_v20 (F := Ideal) x0 x5 x6 x9 (ix3 n (0 : Fin 1) k)
      = Cert.Spec.pre1 (fun c => x0 (ix3 n (0 : Fin 1) c)) (fun c => x9 (ix1 c)) (fun k c => x5 (ix2 k c))
          (fun k => x6 (ix1 k)) k := by
  have e19 : idx_main_v18 (idx_main_v19 (ix3 n (0 : Fin 1) k)) = ix1 k :=
    funext fun a => Fin.ext (by match a with | ⟨0, _⟩ => rfl)
  rw [val_main_v20_apply, val_main_v17_apply, val_main_v19_apply, val_main_v18_apply, e19]
  unfold Cert.Spec.pre1
  rw [Ideal.addf_def]
  refine congrArg (· + _) (Finset.sum_congr rfl fun c _ => ?_)
  have el : lidx_main_v17 (ix3 n (0 : Fin 1) k) c = ix3 n (0 : Fin 1) c :=
    funext fun a => Fin.ext (by match a with | ⟨0, _⟩ => rfl | ⟨1, _⟩ => rfl | ⟨2, _⟩ => rfl)
  have er : ridx_main_v17 (ix3 n (0 : Fin 1) k) c = ix2 k c :=
    funext fun a => Fin.ext (by match a with | ⟨0, _⟩ => rfl | ⟨1, _⟩ => rfl)
  rw [el, er, snorm_apply]

/-- Hidden unit `k` of row `n`: `x · 1 / (1 + exp (-x))` is `x · logistic x`. -/
theorem hid_apply (x0 : FVec Ideal S10000x1x128 .f32) (x5 : FVec Ideal S128x128 .f32) (x6 x9 : FVec Ideal S128 .f32)
    (n : Fin 10000) (k : Fin 128) :
    val_main_v21 (F := Ideal) x0 x5 x6 x9 (ix3 n (0 : Fin 1) k)
      = Cert.Spec.hid (fun c => x0 (ix3 n (0 : Fin 1) c)) (fun c => x9 (ix1 c)) (fun k c => x5 (ix2 k c))
          (fun k => x6 (ix1 k)) k := by
  rw [val_main_v21_apply, val_main_call0_v5_apply, val_main_call0_v4_apply, val_main_call0_cst_0_apply,
    val_main_call0_v3_apply, val_main_call0_v2_apply, val_main_call0_cst_apply, val_main_call0_v1_apply,
    val_main_call0_v0_apply, pre1_apply, Ideal.ofBits_def, Ideal.ofBits_one_f32]
  rfl

end NodeNet

/-- Entry `(n, 0, d)` of the reference's `phi_s`. -/
theorem ref_phi_apply (x0 : FVec Ideal S10000x1x128 .f32) (x5 : FVec Ideal S128x128 .f32) (x6 : FVec Ideal S128 .f32)
    (x7 : FVec Ideal S384x128 .f32) (x8 : FVec Ideal S384 .f32) (x9 : FVec Ideal S128 .f32) (n : Fin 10000) (d : Fin 384) :
    val_main_v25 (F := Ideal) x0 x5 x6 x7 x8 x9 (ix3 n (0 : Fin 1) d)
      = Cert.Spec.phi (fun c => x0 (ix3 n (0 : Fin 1) c)) (fun c => x9 (ix1 c)) (fun k c => x5 (ix2 k c)) (fun k => x6 (ix1 k))
          (fun d k => x7 (ix2 d k)) (fun d => x8 (ix1 d)) d := by
  have e24 : idx_main_v23 (idx_main_v24 (ix3 n (0 : Fin 1) d)) = ix1 d :=
    funext fun a => Fin.ext (by match a with | ⟨0, _⟩ => rfl)
  rw [val_main_v25_apply, val_main_v22_apply, val_main_v24_apply, val_main_v23_apply, e24]
  unfold Cert.Spec.phi
  rw [Ideal.addf_def]
  refine congrArg (· + _) (Finset.sum_congr rfl fun k _ => ?_)
  have el : lidx_main_v22 (ix3 n (0 : Fin 1) d) k = ix3 n (0 : Fin 1) k :=
    funext fun a => Fin.ext (by match a with | ⟨0, _⟩ => rfl | ⟨1, _⟩ => rfl | ⟨2, _⟩ => rfl)
  have er : ridx_main_v22 (ix3 n (0 : Fin 1) d) k = ix2 d k :=
    funext fun a => Fin.ext (by match a with | ⟨0, _⟩ => rfl | ⟨1, _⟩ => rfl)
  rw [el, er, NodeNet.hid_apply]

end Cert.ReferenceIdeal.RefValue

end
-- ==== Proof.Bridge.lean ====
/-
  The two results of the kernel's program are the reference's, as functions of the arguments.

  Edge by edge the kernel's scalar and vector terms are the reference's, times the edge scale: both read the node
  network's output and the vector features at the source node, the filter and the direction at the edge. Summed over
  the edges of a destination node, the scaled terms give the scaled sum (the scale is a nonnegative real), and the
  kernel's [nodes, 128] table of scalar sums is the reference's [nodes, 1, 128] table.
-/
import proofs.«406259_j12489764897067_3_alg».proof.Proof.Names
import proofs.«406259_j12489764897067_3_alg».proof.Proof.Tail
import proofs.«406259_j12489764897067_3_alg».proof.Proof.HostMid
import proofs.«406259_j12489764897067_3_alg».proof.Proof.NodeArr
import proofs.«406259_j12489764897067_3_alg».proof.Proof.EdgeArr
import proofs.«406259_j12489764897067_3_alg».proof.Proof.ScatterLaw
import proofs.«406259_j12489764897067_3_alg».proof.Proof.ScatterUnit
import proofs.«406259_j12489764897067_3_alg».proof.Proof.RefGather
import proofs.«406259_j12489764897067_3_alg».proof.Proof.RefEdge
import proofs.«406259_j12489764897067_3_alg».proof.Proof.NodeRef
import Idealize.ShloMosaic.Lib.Pipeline.Value

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx
open Cert.ReferenceIdeal.Read (val_main_v3 val_main_v25 val_main_v32 val_main_v33 val_main_v34 val_main_v35 val_main_v36
  val_main_v37 val_main_v38 val_main_v39 val_main_v46 val_main_v47 val_main_v48 val_main_v49 val_main_v50 val_main_v51
  val_main_v52 val_main_v53 val_main_v54 val_main_v55 val_main_v56 val_main_v57 val_main_v58 val_main_v59 val_main_v60
  val_main_v61 val_main_v62)

variable (m : (ℓ : Loc nD τ sig) → Buf (Elt Ideal) ℓ) (ρ : Dev nD → PrngReg)

/-! ## Reshapes read at an entry -/

/-- A [10000, 128] table given a unit axis. -/
theorem addUnit_apply (X : FVec Ideal S10000x128 .f32) (n : Fin 10000) (q : Fin 128) :
    shapeCast S10000x1x128 X shapeCasts_S10000x128_S10000x1x128 (ix3 n (0 : Fin 1) q) = X (ix2 n q) :=
  shapeCast_apply X _ _ (ix2 n q) (by
    rw [Shape.rowMajor_val_two, Shape.rowMajor_val_three]
    show n.val * 128 + q.val = (n.val * 1 + 0) * 128 + q.val
    omega)

/-- The filter's unit axis dropped. -/
theorem dropUnit_apply (X : FVec Ideal S160000x1x384 .f32) (e : Fin 160000) (d : Fin 384) :
    shapeCast S160000x384 X shapeCasts_S160000x1x384_S160000x384 (ix2 e d) = X (ix3 e (0 : Fin 1) d) :=
  shapeCast_apply X _ _ (ix3 e (0 : Fin 1) d) (by
    rw [Shape.rowMajor_val_two, Shape.rowMajor_val_three]
    show (e.val * 1 + 0) * 384 + d.val = e.val * 384 + d.val
    omega)

/-- 384 columns split into three components of 128. -/
theorem split3_apply (X : FVec Ideal S160000x384 .f32) (e : Fin 160000) (k : Fin 3) (q : Fin 128) :
    shapeCast S160000x3x128 X shapeCasts_S160000x384_S160000x3x128 (ix3 e k q)
      = X (ix2 e ⟨128 * k.val + q.val, by omega⟩) :=
  shapeCast_apply X _ _ (ix2 e ⟨128 * k.val + q.val, by omega⟩) (by
    rw [Shape.rowMajor_val_two, Shape.rowMajor_val_three]
    show e.val * 384 + (128 * k.val + q.val) = (e.val * 3 + k.val) * 128 + q.val
    omega)

/-- Three components of 128 merged into 384 columns. -/
theorem merge3_apply (X : FVec Ideal S10000x3x128 .f32) (n : Fin 10000) (k : Fin 3) (q : Fin 128) :
    shapeCast S10000x384 X shapeCasts_S10000x3x128_S10000x384 (ix2 n ⟨128 * k.val + q.val, by omega⟩) = X (ix3 n k q) :=
  shapeCast_apply X _ _ (ix3 n k q) (by
    rw [Shape.rowMajor_val_two, Shape.rowMajor_val_three]
    show (n.val * 3 + k.val) * 128 + q.val = n.val * 384 + (128 * k.val + q.val)
    omega)

/-! ## The two programs read the same index rows -/

theorem jArr_eq (c : Dev nD) : jArr m c = val_main_v3 (F := Ideal) (argEI m c) := rfl
theorem iCol_eq (c : Dev nD) : iCol m c = val_main_v38 (F := Ideal) (argEI m c) := rfl
theorem iCol_eq' (c : Dev nD) : iCol m c = val_main_v55 (F := Ideal) (argEI m c) := rfl

theorem node_eq (c : Dev nD) (e : Fin 160000) :
    nodeOf (jArr m c) e = Cert.ReferenceIdeal.RefValue.srcNode (argEI m c) e := rfl

theorem inRange_ref (c : Dev nD) (hj : InRange m c) : ∀ e : Fin 160000,
    0 ≤ (val_main_v3 (F := Ideal) (argEI m c) (ix1 e)).toInt ∧ (val_main_v3 (F := Ideal) (argEI m c) (ix1 e)).toInt < 10000 :=
  hj

/-! ## One edge -/

/-- The gathered output of the node network, in both programs the same number. -/
theorem pg_ref (c : Dev nD) (hj : InRange m c) (e : Fin 160000) (d : Fin 384) :
    pgArr m ρ c (ix2 e d)
      = val_main_v32 (F := Ideal) (argS m c) (argEI m c) (argW1 m c) (argB1 m c) (argW2 m c) (argB2 m c) (argRw m c)
          (ix3 e (0 : Fin 1) d) := by
  rw [pgArr_apply m ρ c hj, phiArr_apply,
    Cert.ReferenceIdeal.RefValue.ref_gather_phi _ _ _ _ _ _ _ (inRange_ref m c hj),
    Cert.ReferenceIdeal.RefValue.ref_phi_apply, node_eq]

/-- The unscaled product of the gathered output and the filter, the reference's stage. -/
theorem filt_ref (c : Dev nD) (hj : InRange m c) (e : Fin 160000) (d : Fin 384) :
    pgArr m ρ c (ix2 e d) * rbf2Arr m ρ c (ix2 e d)
      = val_main_v33 (F := Ideal) (argS m c) (argEI m c) (argRbf m c) (argW1 m c) (argB1 m c) (argW2 m c) (argB2 m c) (argRw m c)
          (ix3 e (0 : Fin 1) d) := by
  rw [pg_ref m ρ c hj, rbf2Arr_eq, dropUnit_apply]
  rfl

/-- The scalar term: the reference's, scaled. -/
theorem ms_ref (c : Dev nD) (hj : InRange m c) (e : Fin 160000) (q : Fin 128) :
    msArr m ρ c (ix2 e q)
      = val_main_v34 (F := Ideal) (argS m c) (argEI m c) (argRbf m c) (argW1 m c) (argB1 m c) (argW2 m c) (argB2 m c) (argRw m c)
          (ix3 e (0 : Fin 1) q) * Cert.Spec.κ := by
  refine (msArr_apply m ρ c e q).trans ?_
  refine (Cert.Spec.msK_eq _ _).trans ?_
  refine congrArg (· * Cert.Spec.κ) ?_
  refine Eq.trans ?_ (Cert.ReferenceIdeal.RefValue.ref_ms_apply _ _ _ _ _ _ _ _ e q).symm
  exact filt_ref m ρ c hj e ⟨q.val, by omega⟩

/-- The source's vector feature, as the kernel's flattened gather and as the reference's gather read it. -/
theorem vg_ref (c : Dev nD) (hj : InRange m c) (e : Fin 160000) (k : Fin 3) (q : Fin 128) :
    vgArr m ρ c (ix2 e ⟨128 * k.val + q.val, by omega⟩)
      = argV m c (ix3 (Cert.ReferenceIdeal.RefValue.srcNode (argEI m c) e) k q) :=
  (vgArr_apply m ρ c hj e ⟨128 * k.val + q.val, by omega⟩).trans (merge3_apply (argV m c) (nodeOf (jArr m c) e) k q)

/-- The vector term: the reference's, scaled. -/
theorem gate_ref (c : Dev nD) (hj : InRange m c) (e : Fin 160000) (k : Fin 3) (q : Fin 128) :
    gateArr m ρ c (ix2 e ⟨128 * k.val + q.val, by omega⟩)
      = val_main_v53 (F := Ideal) (argS m c) (argV m c) (argEI m c) (argRbf m c) (argEv m c) (argW1 m c) (argB1 m c) (argW2 m c)
          (argB2 m c) (argRw m c) (ix3 e k q) * Cert.Spec.κ := by
  refine (gateArr_apply m ρ c e k q).trans ?_
  refine (Cert.Spec.gateK_eq _ _ _ _ _ _).trans ?_
  refine congrArg (· * Cert.Spec.κ) ?_
  refine Eq.trans ?_ (Cert.ReferenceIdeal.RefValue.ref_gate_apply _ _ _ _ _ _ _ _ _ _ (inRange_ref m c hj) e k q).symm
  unfold Cert.Spec.gateR
  refine congrArg₂ (· + ·) (congrArg₂ (· * ·) ?_ ?_) (congrArg₂ (· * ·) ?_ ?_)
  · exact vg_ref m ρ c hj e k q
  · exact filt_ref m ρ c hj e ⟨128 + q.val, by omega⟩
  · exact congrFun (evArr_eq m ρ c) (ix2 e k)
  · exact filt_ref m ρ c hj e ⟨256 + q.val, by omega⟩

/-! ## The two results -/

theorem zeros_eq {T : Shape} (h : (S_ : Shape).BroadcastsInDim T ![]) :
    broadcastInDim T ![] h (constant (F := Ideal) S_ .f32 0x00000000#32) = fun _ => (0 : EReal) :=
  funext fun _ => Ideal.ofBits_zero_f32

/-- The scalar result. -/
theorem out0_bridge (c : Dev nD) (hj : InRange m c) :
    W8 m ρ c (Proc.devRef .tc main_v21)
      = val_main_v59 (F := Ideal) (argS m c) (argEI m c) (argRbf m c) (argW1 m c) (argB1 m c) (argW2 m c) (argB2 m c) (argRw m c) := by
  rw [out0_eq]
  funext i
  obtain ⟨n, z, q, rfl⟩ : ∃ (n : Fin 10000) (z : Fin 1) (q : Fin 128), i = ix3 n z q := ⟨i 0, i 1, i 2, eq_ix3 i⟩
  obtain rfl : z = 0 := Subsingleton.elim _ _
  rw [Cert.ReferenceIdeal.Read.val_main_v59_apply, Cert.ReferenceIdeal.Read.val_main_v58_apply]
  refine congrArg (FloatOps.addf (argS m c (ix3 n (0 : Fin 1) q))) ?_
  rw [addUnit_apply]
  show Ideal.hostScatterAdd _ _ _ _ _ = Ideal.hostScatterAdd _ _ _ _ _ * Cert.Spec.κ
  rw [zeros_eq, iCol_eq]
  refine (Cert.Spec.scatter_unit _ (msArr m ρ c)
    (fun j => val_main_v34 (F := Ideal) (argS m c) (argEI m c) (argRbf m c) (argW1 m c) (argB1 m c) (argW2 m c) (argB2 m c) (argRw m c) j * Cert.Spec.κ)
    (fun e q => ms_ref m ρ c hj e q) n q).trans ?_
  have hz : val_main_v37 (F := Ideal) = fun _ => (0 : EReal) := zeros_eq _
  rw [hz]
  exact Cert.Spec.scatterAdd_scale _ _ _ _ (fun _ => rfl) _

/-- The vector result. -/
theorem out1_bridge (c : Dev nD) (hj : InRange m c) :
    W8 m ρ c (Proc.devRef .tc main_v22)
      = val_main_v62 (F := Ideal) (argS m c) (argV m c) (argEI m c) (argRbf m c) (argEv m c) (argW1 m c) (argB1 m c) (argW2 m c)
          (argB2 m c) (argRw m c) := by
  rw [out1_eq]
  funext i
  rw [Cert.ReferenceIdeal.Read.val_main_v62_apply, Cert.ReferenceIdeal.Read.val_main_v61_apply]
  refine congrArg (FloatOps.addf (argV m c i)) ?_
  show Ideal.hostScatterAdd _ _ _ _ _ = Ideal.hostScatterAdd _ _ _ _ _ * Cert.Spec.κ
  have hz : val_main_v54 (F := Ideal) = fun _ => (0 : EReal) := zeros_eq _
  rw [zeros_eq, iCol_eq', hz]
  refine Cert.Spec.scatterAdd_scale _ _ _ _ (fun j => ?_) _
  obtain ⟨e, k, q, rfl⟩ : ∃ (e : Fin 160000) (k : Fin 3) (q : Fin 128), j = ix3 e k q := ⟨j 0, j 1, j 2, eq_ix3 j⟩
  rw [split3_apply]
  exact gate_ref m ρ c hj e k q

end Cert.KernelIdeal.KV

end
-- ==== Proof.RefVal.lean ====
/-
  The reference side of the value claim: what the host reference computes, read index by index.
-/
import proofs.«406259_j12489764897067_3_alg».proof.Proof.Gen.ReferenceIdeal.Read

noncomputable section

namespace Cert.ReferenceIdeal.RefValue

end Cert.ReferenceIdeal.RefValue

end
-- ==== Proof.lean ====
/-
  A message-passing layer over a graph of 10000 nodes and 160000 edges, computed by two programs.

  Both normalise each node's 128 features by the root of their mean square, pass them through two linear layers with
  `x · logistic x` between, and gather the 384 outputs at every edge's source node; times the edge's filter, the three
  thirds weight a scalar message, the source's three vector features and the edge's direction, and the messages are
  summed over the edges of each destination node and added to the node's features. The kernel's program runs the
  node network and the per-edge products in two tiled regions and scales each edge term by 1/16 before the sums; the
  reference scales the sums. With every source index a node's (the precondition's last conjunct), the two results are
  equal on the extended reals: edge by edge the terms differ by the scale, and a nonnegative real scale distributes
  over every finite sum. The frames are the generated ones; the kernel's idealization rewrote nothing.
-/
import proofs.«406259_j12489764897067_3_alg».proof.Defs
import proofs.«406259_j12489764897067_3_alg».proof.Proof.Gen.Kernel
import proofs.«406259_j12489764897067_3_alg».proof.Proof.Gen.Kernel.Skeleton
import proofs.«406259_j12489764897067_3_alg».proof.Proof.Gen.Kernel.Launch
import proofs.«406259_j12489764897067_3_alg».proof.Proof.Gen.Kernel.Points
import proofs.«406259_j12489764897067_3_alg».proof.Proof.Gen.Kernel.Frame
import proofs.«406259_j12489764897067_3_alg».proof.Proof.Gen.KernelIdeal
import proofs.«406259_j12489764897067_3_alg».proof.Proof.Gen.KernelIdeal.Skeleton
import proofs.«406259_j12489764897067_3_alg».proof.Proof.Gen.KernelIdeal.Launch
import proofs.«406259_j12489764897067_3_alg».proof.Proof.Gen.KernelIdeal.Points
import proofs.«406259_j12489764897067_3_alg».proof.Proof.Gen.KernelIdeal.Frame
import proofs.«406259_j12489764897067_3_alg».proof.Proof.Gen.ReferenceIdeal
import proofs.«406259_j12489764897067_3_alg».proof.Proof.Gen.ReferenceIdeal.Run
import proofs.«406259_j12489764897067_3_alg».proof.Proof.Gen.ReferenceIdeal.Read
import proofs.«406259_j12489764897067_3_alg».proof.Proof.Gen.Pre_finite_inputs
import proofs.«406259_j12489764897067_3_alg».proof.Proof.KRun
import proofs.«406259_j12489764897067_3_alg».proof.Proof.PreDecode
import proofs.«406259_j12489764897067_3_alg».proof.Proof.Bridge
import proofs.«406259_j12489764897067_3_alg».proof.Proof.RefVal
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.KV

theorem frame_k : Cert.frame_Kernel := fun m ρ _ => Cert.Kernel.Gen.frame m ρ
theorem frame_ki : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the two results at the reference's two stage functions of the (agreeing) arguments. -/
theorem algebraic : Cert.algebraic_KernelIdeal_ReferenceIdeal := by
  intro m ρ m' ρ' hpre hagree
  have hj : ∀ c, InRange m c := fun c => inRange_of_pre m hpre c
  refine ⟨fun c => Cert.ReferenceIdeal.Read.val_main_v59 (F := Ideal) (argS m c) (argEI m c) (argRbf m c) (argW1 m c) (argB1 m c)
      (argW2 m c) (argB2 m c) (argRw m c),
    fun c => Cert.ReferenceIdeal.Read.val_main_v62 (F := Ideal) (argS m c) (argV m c) (argEI m c) (argRbf m c) (argEv m c)
      (argW1 m c) (argB1 m c) (argW2 m c) (argB2 m c) (argRw m c), ?_, ?_⟩
  · exact (θ_run Cert.KernelIdeal.defs _ _).mono
      (fun r h c => ⟨(h c).1.trans (out0_bridge m ρ c (hj c)), (h c).2.1.trans (out1_bridge m ρ c (hj c)), (h c).2.2⟩)
      (Cert.KernelIdeal.Gen.run_vals m ρ)
  · refine (θ_run Cert.ReferenceIdeal.defs _ _).mono (fun r h c => ⟨?_, ?_, (h c).2.2⟩)
      (Cert.ReferenceIdeal.Value.run (F := Ideal) m' ρ')
    · obtain ⟨a0, a1, a2, a3, a4, a5, a6, a7, a8, a9⟩ := hagree c
      rw [(h c).1, Cert.ReferenceIdeal.Read.val_main_v59_eq, a0, a2, a3, a5, a6, a7, a8, a9]
    · obtain ⟨a0, a1, a2, a3, a4, a5, a6, a7, a8, a9⟩ := hagree c
      rw [(h c).2.1, Cert.ReferenceIdeal.Read.val_main_v62_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
